-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : IVec S640000 32) (main_v28 : IVec S_ 1) (main_v33 : IVec S640000 1) : IVec S_ 1 :=
  let main_c_12 : IVec S_ 1 := constantI S_ 1 1#1
  let main_v34 : IVec S_ 1 := (fun x v => Host.reduce IntOp.andi x v reducesTo_S640000_S_d0 h_S_) main_v33 main_c_12
  let main_v35 : IVec S_ 1 := andi main_v28 main_v34
  let main_c_13 : IVec S_ 32 := constantI S_ 32 0#32
  let main_v36 : IVec S640000 32 := broadcastInDim S640000 ![] bcast_S_S640000 main_c_13
  let main_v37 : IVec S640000 1 := cmpi .sge main_arg7 main_v36
  let main_c_14 : IVec S_ 32 := constantI S_ 32 10000#32
  let main_v38 : IVec S640000 32 := broadcastInDim S640000 ![] bcast_S_S640000 main_c_14
  let main_v39 : IVec S640000 1 := cmpi .slt main_arg7 main_v38
  let main_v40 : IVec S640000 1 := andi main_v37 main_v39
  let main_c_15 : IVec S_ 1 := constantI S_ 1 1#1
  let main_v41 : IVec S_ 1 := (fun x v => Host.reduce IntOp.andi x v reducesTo_S640000_S_d0 h_S_) main_v40 main_c_15
  let main_v42 : IVec S_ 1 := andi main_v35 main_v41
  main_v42

def fn_part1 {F : FTy → Type} [FloatOps F] (main_arg4 : FVec F S128x128 .f32) (main_arg5 : FVec F S128 .f32) (main_arg6 : IVec S640000 32) (main_arg7 : IVec S640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S640000 32 := broadcastInDim S640000 ![] bcast_S_S640000 main_c_10
  let main_v30 : IVec S640000 1 := cmpi .sge main_arg6 main_v29
  let main_c_11 : IVec S_ 32 := constantI S_ 32 10000#32
  let main_v31 : IVec S640000 32 := broadcastInDim S640000 ![] bcast_S_S640000 main_c_11
  let main_v32 : IVec S640000 1 := cmpi .slt main_arg6 main_v31
  let main_v33 : IVec S640000 1 := andi main_v30 main_v32
  fn_part2 (F := F) main_arg7 main_v28 main_v33

def fn {F : FTy → Type} [FloatOps F] (main_arg0 : FVec F S10000x128 .f32) (main_arg1 : FVec F S640000 .f32) (main_arg2 : FVec F S128x128 .f32) (main_arg3 : FVec F S128 .f32) (main_arg4 : FVec F S128x128 .f32) (main_arg5 : FVec F S128 .f32) (main_arg6 : IVec S640000 32) (main_arg7 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S10000 : Shape := ⟨1, ![10000]⟩
abbrev S640000x1 : Shape := ⟨2, ![640000, 1]⟩
abbrev S10240x10240 : Shape := ⟨2, ![10240, 10240]⟩
abbrev S640000x2 : Shape := ⟨2, ![640000, 2]⟩
abbrev S10240x128 : Shape := ⟨2, ![10240, 128]⟩
abbrev S1x128 : Shape := ⟨2, ![1, 128]⟩
abbrev S640x10240 : Shape := ⟨2, ![640, 10240]⟩
abbrev S640x128 : Shape := ⟨2, ![640, 128]⟩

abbrev nBuf : Space → Nat
  | .hbm => 81
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S640000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S10000, .f32⟩
  | .hbm, ⟨12, _⟩ => ⟨S640000x1, .i32⟩
  | .hbm, ⟨13, _⟩ => ⟨S10000, .f32⟩
  | .hbm, ⟨14, _⟩ => ⟨S_, .f32⟩
  | .hbm, ⟨15, _⟩ => ⟨S10000, .f32⟩
  | .hbm, ⟨16, _⟩ => ⟨S640000x1, .i32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000, .f32⟩
  | .hbm, ⟨35, _⟩ => ⟨S640000, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000, .f32⟩
  | .hbm, ⟨45, _⟩ => ⟨S640000, .f32⟩
  | .hbm, ⟨46, _⟩ => ⟨S_, .f32⟩
  | .hbm, ⟨47, _⟩ => ⟨S10240x10240, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S_, .i32⟩
  | .hbm, ⟨56, _⟩ => ⟨S640000, .i32⟩
  | .hbm, ⟨57, _⟩ => ⟨S640000, .i1⟩
  | .hbm, ⟨58, _⟩ => ⟨S_, .i32⟩
  | .hbm, ⟨59, _⟩ => ⟨S640000, .i32⟩
  | .hbm, ⟨60, _⟩ => ⟨S640000, .i32⟩
  | .hbm, ⟨61, _⟩ => ⟨S640000, .i32⟩
  | .hbm, ⟨62, _⟩ => ⟨S640000x1, .i32⟩
  | .hbm, ⟨63, _⟩ => ⟨S640000x1, .i32⟩
  | .hbm, ⟨64, _⟩ => ⟨S640000x2, .i32⟩
  | .hbm, ⟨65, _⟩ => ⟨S10240x10240, .f32⟩
  | .hbm, ⟨66, _⟩ => ⟨S10240x10240, .bf16⟩
  | .hbm, ⟨67, _⟩ => ⟨S_, .i32⟩
  | .hbm, ⟨68, _⟩ => ⟨S_, .f32⟩
  | .hbm, ⟨69, _⟩ => ⟨S10240x128, .f32⟩
  | .hbm, ⟨70, _⟩ => ⟨S1x128, .f32⟩
  | .hbm, ⟨71, _⟩ => ⟨S1x128, .f32⟩
  | .hbm, ⟨72, _⟩ => ⟨S10240x128, .f32⟩
  | .hbm, ⟨73, _⟩ => ⟨S10240x128, .bf16⟩
  | .hbm, ⟨74, _⟩ => ⟨S10240x128, .bf16⟩
  | .hbm, ⟨75, _⟩ => ⟨S10240x128, .f32⟩
  | .hbm, ⟨76, _⟩ => ⟨S10240x128, .f32⟩
  | .hbm, ⟨77, _⟩ => ⟨S10240x128, .bf16⟩
  | .hbm, ⟨78, _⟩ => ⟨S10240x128, .bf16⟩
  | .hbm, ⟨79, _⟩ => ⟨S10000x128, .bf16⟩
  | .hbm, ⟨80, _⟩ => ⟨S10000x128, .f32⟩
  | .local _ .vmem, ⟨0, _⟩ => ⟨S640x10240, .bf16⟩
  | .local _ .vmem, ⟨1, _⟩ => ⟨S640x10240, .bf16⟩
  | .local _ .vmem, ⟨2, _⟩ => ⟨S10240x128, .bf16⟩
  | .local _ .vmem, ⟨3, _⟩ => ⟨S1x128, .f32⟩
  | .local _ .vmem, ⟨4, _⟩ => ⟨S640x128, .bf16⟩
  | .local _ .vmem, ⟨5, _⟩ => ⟨S640x128, .bf16⟩
  | .local _ .vmem, ⟨6, _⟩ => ⟨S640x10240, .bf16⟩
  | .local _ .vmem, ⟨7, _⟩ => ⟨S640x10240, .bf16⟩
  | .local _ .vmem, ⟨8, _⟩ => ⟨S10240x128, .bf16⟩
  | .local _ .vmem, ⟨9, _⟩ => ⟨S1x128, .f32⟩
  | .local _ .vmem, ⟨10, _⟩ => ⟨S640x128, .bf16⟩
  | .local _ .vmem, ⟨11, _⟩ => ⟨S640x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_c_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_12 : Ref sig .tc := ⟨.hbm, 67, rfl⟩
abbrev main_call0_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S640x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S_S10240x10240 : S_.BroadcastsInDim S10240x10240 (![] : Fin 0 → Fin S10240x10240.rank)
  concatenates_S640000x1_S640000x1_S640000x2_d1 : Shape.Concatenates [S640000x1, S640000x1] S640000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  shapeCasts_S128_S1x128 : S128.ShapeCasts S1x128
  inb_S640x10240_S640x10240_0_0 : ∀ a, (![0, 0] : Fin 2 → Nat) a + S640x10240.size a ≤ S640x10240.size a
  h_S640x10240 : 0 < S640x10240.numel
  shapeCasts_S640x10240_S640x10240 : S640x10240.ShapeCasts S640x10240
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S640x128 : S1x128.Broadcasts S640x128
  inb_S640x128_S640x128_0_0 : ∀ a, (![0, 0] : Fin 2 → Nat) a + S640x128.size a ≤ S640x128.size a
  h_S640x128 : 0 < S640x128.numel
  packedbf16_S640x128_S640x128_0_0 : (Rect.unit (s := S640x128) ![0, 0] S640x128.size inb_S640x128_S640x128_0_0).PackedRows (EltTy.packing .bf16)
  slices_S10240x128_S10000x128_0_0 : S10240x128.Slices ![0, 0] S10000x128
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  scatter_S10240x10240_S640000x2_S640000_n_01_01_1_wf : ScatterDims.WF S10240x10240 S640000x2 S640000 [] [0, 1] [0, 1] 1
  dot_S10240x128_S128x128_S10240x128_1_0_0_1_n_n_wf : DotDims.WF S10240x128 S128x128 S10240x128 [1] [0] [0] [1] [] []
  dot_S640x10240_S10240x128_S640x128_1_0_0_1_n_n_wf : DotDims.WF S640x10240 S10240x128 S640x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x10240.size a ≤ S10240x10240.size a
  hwx0_0 : ∀ i : grid0.Coords, EltTy.bits .bf16 = 32 ∨ (Rect.block (s := S10240x10240) S640x10240.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S640x128.size a ≤ S10240x128.size a
  hwx0_3 : ∀ i : grid0.Coords, EltTy.bits .bf16 = 32 ∨ (Rect.block (s := S10240x128) S640x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S640x10240.size a ≤ S10240x10240.size a
  hwx1_0 : ∀ i : grid1.Coords, EltTy.bits .bf16 = 32 ∨ (Rect.block (s := S10240x10240) S640x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x128.size a ≤ S10240x128.size a
  hwx1_1 : ∀ i : grid1.Coords, EltTy.bits .bf16 = 32 ∨ (Rect.block (s := S10240x128) S10240x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S640x128.size a ≤ S10240x128.size a
  hwx1_3 : ∀ i : grid1.Coords, EltTy.bits .bf16 = 32 ∨ (Rect.block (s := S10240x128) S640x128.size (cc1_transform_3 i) (hinb1_3 i)).WholeWords (EltTy.packing .bf16)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10240x10240_S640000x2_S640000_n_01_01_1 : ScatterDims S10240x10240 S640000x2 S640000 where
  updateWindowDims := []
  insertedWindowDims := [0, 1]
  scatterDimsToOperandDims := [0, 1]
  indexVectorDim := 1
  wf := scatter_S10240x10240_S640000x2_S640000_n_01_01_1_wf
def dot_S10240x128_S128x128_S10240x128_1_0_0_1_n_n : DotDims S10240x128 S128x128 S10240x128 where
  lhsContracting := [1]
  rhsContracting := [0]
  lhsNonContracting := [0]
  rhsNonContracting := [1]
  lhsBatch := []
  rhsBatch := []
  wf := dot_S10240x128_S128x128_S10240x128_1_0_0_1_n_n_wf
def dot_S640x10240_S10240x128_S640x128_1_0_0_1_n_n : DotDims S640x10240 S10240x128 S640x128 where
  lhsContracting := [1]
  rhsContracting := [0]
  lhsNonContracting := [0]
  rhsNonContracting := [1]
  lhsBatch := []
  rhsBatch := []
  wf := dot_S640x10240_S10240x128_S640x128_1_0_0_1_n_n_wf

abbrev win0_0 : Pipeline.Window sig grid0 :=
  Pipeline.Window.ofSpec (Memref.whole main_v44) S640x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S640x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S640x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S10240x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S640x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S10000, .f32⟩
  | .hbm, ⟨12, _⟩ => ⟨S640000x1, .i32⟩
  | .hbm, ⟨13, _⟩ => ⟨S10000, .f32⟩
  | .hbm, ⟨14, _⟩ => ⟨S_, .f32⟩
  | .hbm, ⟨15, _⟩ => ⟨S10000, .f32⟩
  | .hbm, ⟨16, _⟩ => ⟨S640000x1, .i32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S10000x128, .f32⟩
  | .hbm, ⟨28, _⟩ => ⟨S10000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x128, .f32⟩
  | .hbm, ⟨38, _⟩ => ⟨S640000x1, .f32⟩
  | .hbm, ⟨39, _⟩ => ⟨S640000x128, .f32⟩
  | .hbm, ⟨40, _⟩ => ⟨S640000x128, .f32⟩
  | .hbm, ⟨41, _⟩ => ⟨S_, .f32⟩
  | .hbm, ⟨42, _⟩ => ⟨S10000x128, .f32⟩
  | .hbm, ⟨43, _⟩ => ⟨S640000x1, .i32⟩
  | .hbm, ⟨44, _⟩ => ⟨S10000x128, .f32⟩
  | .hbm, ⟨45, _⟩ => ⟨S10000x128, .f32⟩
  | .hbm, ⟨46, _⟩ => ⟨S10000x1, .f32⟩
  | .hbm, ⟨47, _⟩ => ⟨S10000x128, .f32⟩
  | .hbm, ⟨48, _⟩ => ⟨S10000x128, .f32⟩
  | .hbm, ⟨49, _⟩ => ⟨S1x128, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S10000x128, .f32⟩
  | .hbm, ⟨54, _⟩ => ⟨S10000x128, .f32⟩
  | .hbm, ⟨55, _⟩ => ⟨S_, .f32⟩
  | .hbm, ⟨56, _⟩ => ⟨S10000x128, .f32⟩
  | .hbm, ⟨57, _⟩ => ⟨S10000x128, .f32⟩
  | .hbm, ⟨58, _⟩ => ⟨S_, .f32⟩
  | .hbm, ⟨59, _⟩ => ⟨S640000, .f32⟩
  | .hbm, ⟨60, _⟩ => ⟨S_, .f32⟩
  | .hbm, ⟨61, _⟩ => ⟨S10000, .f32⟩
  | .hbm, ⟨62, _⟩ => ⟨S640000x1, .i32⟩
  | .hbm, ⟨63, _⟩ => ⟨S10000, .f32⟩
  | .hbm, ⟨64, _⟩ => ⟨S_, .f32⟩
  | .hbm, ⟨65, _⟩ => ⟨S10000, .f32⟩
  | .hbm, ⟨66, _⟩ => ⟨S640000x1, .i32⟩
  | .hbm, ⟨67, _⟩ => ⟨S10000, .f32⟩
  | .hbm, ⟨68, _⟩ => ⟨S_, .f32⟩
  | .hbm, ⟨69, _⟩ => ⟨S10000, .f32⟩
  | .hbm, ⟨70, _⟩ => ⟨S10000, .f32⟩
  | .hbm, ⟨71, _⟩ => ⟨S10000, .f32⟩
  | .hbm, ⟨72, _⟩ => ⟨S_, .f32⟩
  | .hbm, ⟨73, _⟩ => ⟨S10000, .f32⟩
  | .hbm, ⟨74, _⟩ => ⟨S10000, .f32⟩
  | .hbm, ⟨75, _⟩ => ⟨S10000, .f32⟩
  | .hbm, ⟨76, _⟩ => ⟨S10000x1, .f32⟩
  | .hbm, ⟨77, _⟩ => ⟨S10000x128, .f32⟩
  | .hbm, ⟨78, _⟩ => ⟨S10000x128, .f32⟩
  | .hbm, ⟨79, _⟩ => ⟨S_, .i32⟩
  | .hbm, ⟨80, _⟩ => ⟨S640000, .i32⟩
  | .hbm, ⟨81, _⟩ => ⟨S640000, .i1⟩
  | .hbm, ⟨82, _⟩ => ⟨S_, .i32⟩
  | .hbm, ⟨83, _⟩ => ⟨S640000, .i32⟩
  | .hbm, ⟨84, _⟩ => ⟨S640000, .i32⟩
  | .hbm, ⟨85, _⟩ => ⟨S640000, .i32⟩
  | .hbm, ⟨86, _⟩ => ⟨S640000x1, .i32⟩
  | .hbm, ⟨87, _⟩ => ⟨S640000x128, .f32⟩
  | .hbm, ⟨88, _⟩ => ⟨S640000x1, .f32⟩
  | .hbm, ⟨89, _⟩ => ⟨S640000x128, .f32⟩
  | .hbm, ⟨90, _⟩ => ⟨S640000x128, .f32⟩
  | .hbm, ⟨91, _⟩ => ⟨S_, .f32⟩
  | .hbm, ⟨92, _⟩ => ⟨S10000x128, .f32⟩
  | .hbm, ⟨93, _⟩ => ⟨S640000x1, .i32⟩
  | .hbm, ⟨94, _⟩ => ⟨S10000x128, .f32⟩
  | .hbm, ⟨95, _⟩ => ⟨S10000x128, .f32⟩
  | .hbm, ⟨96, _⟩ => ⟨S10000x1, .f32⟩
  | .hbm, ⟨97, _⟩ => ⟨S10000x128, .f32⟩
  | .hbm, ⟨98, _⟩ => ⟨S10000x128, .f32⟩
  | .hbm, ⟨99, _⟩ => ⟨S1x128, .f32⟩
  | .hbm, ⟨100, _⟩ => ⟨S10000x128, .f32⟩
  | .hbm, ⟨101, _⟩ => ⟨S10000x128, .f32⟩
  | .hbm, ⟨102, _⟩ => ⟨S_, .f32⟩
  | .hbm, ⟨103, _⟩ => ⟨S10000x128, .f32⟩
  | .hbm, ⟨104, _⟩ => ⟨S10000x128, .f32⟩
  | .hbm, ⟨105, _⟩ => ⟨S_, .f32⟩
  | .hbm, ⟨106, _⟩ => ⟨S10000x128, .f32⟩
  | .hbm, ⟨107, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call2_cst : Ref sig .tc := ⟨.hbm, 102, rfl⟩
abbrev main_call2_v0 : Ref sig .tc := ⟨.hbm, 103, rfl⟩
abbrev main_v74 : Ref sig .tc := ⟨.hbm, 104, rfl⟩
abbrev main_call3_cst : Ref sig .tc := ⟨.hbm, 105, rfl⟩
abbrev main_call3_v0 : Ref sig .tc := ⟨.hbm, 106, rfl⟩
abbrev main_v75 : Ref sig .tc := ⟨.hbm, 107, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.SpecDefs.lean ====
/-
  Two graph-convolution layers with the symmetric degree normalisation, written two ways over the extended reals.

  Edges e run over a finite type; s e and d e are the source and the destination node of e, ew e its weight,
  ns and nd the two normalisation factors of a node (one from its out-degree, one from its in-degree).

  The aggregate-first way (refLayer): scale the rows of h by ns, gather them along the edges, weight them, add
  them up at the destination, multiply by W, scale by nd, add the bias, clip at zero (twice; the second clip
  changes nothing).

  The dense way (kerLayer over adjMat): first build the normalised adjacency matrix over a LARGER index type π
  that holds the nodes through an injection emb,
      adjMat p q = sum over edges with emb (d e) = p and emb (s e) = q of ew e * ns (s e) * nd (d e),
  then a layer is  clip (adjMat * (h * W) + b) over the rows of π. Columns of adjMat outside the nodes are zero, so
  whatever the rows of h outside the nodes hold does not reach a node's row.

  When every entry is a real number the two ways agree at the nodes (ker_eq_ref): matrix multiplication is
  associative and a factor that depends only on the destination comes out of the sum over the edges that land there.
-/
import Mathlib.Data.EReal.Basic
import Mathlib.Data.EReal.Operations
import Mathlib.Algebra.BigOperators.Group.Finset.Basic
import Mathlib.Algebra.BigOperators.Ring.Finset
import Mathlib.Data.Fintype.BigOperators

noncomputable section

namespace Cert.GC

open Finset

variable {ι ν π γ : Type} [Fintype ι] [Fintype ν] [Fintype π] [Fintype γ] [DecidableEq ν] [DecidableEq π]

/-- The normalised adjacency matrix over the larger index type. -/
def adjMat (s d : ι → ν) (emb : ν → π) (ew : ι → EReal) (ns nd : ν → EReal) (p q : π) : EReal :=
  ∑ e ∈ univ.filter (fun e => emb (d e) = p ∧ emb (s e) = q), ew e * ns (s e) * nd (d e)

/-- One dense layer: clip (A * (h * W) + b). -/
def kerLayer (A : π → π → EReal) (h : π → γ → EReal) (W : γ → γ → EReal) (b : γ → EReal) (p : π) (k : γ) : EReal :=
  max (∑ q, A p q * ∑ c, h q c * W c k + b k) 0

/-- One aggregate-first layer. -/
def refLayer (s d : ι → ν) (ew : ι → EReal) (ns nd : ν → EReal) (h : ν → γ → EReal) (W : γ → γ → EReal)
    (b : γ → EReal) (i : ν) (k : γ) : EReal :=
  max (max ((∑ c, (∑ e ∈ univ.filter (fun e => d e = i), h (s e) c * ns (s e) * ew e) * W c k) * nd i + b k) 0) 0

/-- An extended real that is a real number. -/
def IsReal (x : EReal) : Prop := ∃ r : ℝ, x = (r : EReal)

end Cert.GC

end
-- ==== Proof.LibScatterRead.lean ====
/-
  Accumulating scatters and a gather of the shapes jnp's indexing produces, read at one index over the extended
  reals. In each the start indices come as a table with one row per update; an update lands where its row of the
  table says, read as signed integers, and is dropped when that is outside the operand:
   * a vector of updates added into a vector through an [M, 1] column of indices (a segment sum of scalars),
   * rows of updates added into the rows of a matrix through an [M, 1] column (a segment sum of rows),
   * a vector of updates added into a matrix through an [M, 2] table of (row, column) pairs,
   * a vector gathered through an [M, 1] column, the index clamped into the vector.
  Each scatter read at an index is the operand's entry plus the sum, over the updates whose index words name that
  entry, of the update.
-/
import Idealize.ShloMosaic.PureOps.Ideal
import Idealize.ShloMosaic.PureOps.Ideal.Laws
import Idealize.ShloMosaic.Lib.ValueIdx
import Idealize.ShloMosaic.Lib.StableHlo.Predicate

noncomputable section

open Idealize.ShloMosaic Idealize.ShloMosaic.ValueIdx

namespace Cert.ScatterRead

variable {φ : FTy} {w : ℕ}

/-- The dimension numbers of a vector of updates added into a vector through an [M, 1] column of indices. -/
abbrev vecScat (n M : ℕ) (wf : ScatterDims.WF ⟨1, ![n]⟩ ⟨2, ![M, 1]⟩ ⟨1, ![M]⟩ [] [0] [0] 1) :
    ScatterDims ⟨1, ![n]⟩ ⟨2, ![M, 1]⟩ ⟨1, ![M]⟩ where
  updateWindowDims := []
  insertedWindowDims := [0]
  scatterDimsToOperandDims := [0]
  indexVectorDim := 1
  wf := wf

/-- The only axis of the operand is an inserted axis: the window coordinate of every update there is 0. -/
private theorem vecScat_window {n M : ℕ} (wf : ScatterDims.WF ⟨1, ![n]⟩ ⟨2, ![M, 1]⟩ ⟨1, ![M]⟩ [] [0] [0] 1)
    (j : (⟨1, ![M]⟩ : Shape).Idx) : (vecScat n M wf).window j 0 = 0 := by
  unfold ScatterDims.window
  rw [dif_neg]
  simp [ScatterDims.sKept, Shape.kept, List.mem_filter]

/-- The start of update e on the only axis is the index word of row e, read signed. -/
private theorem vecScat_start {n M : ℕ} (wf : ScatterDims.WF ⟨1, ![n]⟩ ⟨2, ![M, 1]⟩ ⟨1, ![M]⟩ [] [0] [0] 1)
    (idx : IVec ⟨2, ![M, 1]⟩ w) (e : Fin M) :
    (vecScat n M wf).start (ix1 e) idx 0 = (idx (ix2 e 0)).toInt := by
  unfold ScatterDims.start
  rw [dif_pos (show (0 : Fin 1) ∈ (vecScat n M wf).scatterDimsToOperandDims from List.mem_singleton.mpr rfl)]
  have hsi : (vecScat n M wf).siIdx (ix1 e) ⟨List.idxOf (0 : Fin 1) (vecScat n M wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- Update e lands on entry i exactly when its index word, read signed, is i. -/
theorem vecScat_lands {n M : ℕ} (wf : ScatterDims.WF ⟨1, ![n]⟩ ⟨2, ![M, 1]⟩ ⟨1, ![M]⟩ [] [0] [0] 1)
    (idx : IVec ⟨2, ![M, 1]⟩ w) (e : Fin M) (i : Fin n) :
    (vecScat n M wf).resultIdx? (ix1 e) idx = some (ix1 i) ↔ (idx (ix2 e 0)).toInt = (i.val : ℤ) := by
  have hw := vecScat_window wf (ix1 e)
  have hs := vecScat_start wf idx e
  have hn : (⟨1, ![n]⟩ : Shape).size 0 = n := rfl
  unfold ScatterDims.resultIdx?
  split
  · -- The update lands inside the operand, at start plus window.
    rename_i hh
    have h0 := hh 0
    rw [hw, hs, hn] at h0
    constructor
    · intro h
      have hv : ((vecScat n M wf).start (ix1 e) idx 0 + ((vecScat n M wf).window (ix1 e) 0 : ℕ)).toNat = i.val :=
        congrArg Fin.val (congrFun (Option.some.inj h) 0)
      rw [hw, hs] at hv
      omega
    · intro h
      congr 1
      funext a
      refine Fin.ext ?_
      match a with
      | ⟨0, _⟩ =>
        show ((vecScat n M wf).start (ix1 e) idx 0 + ((vecScat n M wf).window (ix1 e) 0 : ℕ)).toNat = i.val
        rw [hw, hs]
        omega
  · -- The update is dropped: its index word is outside [0, n).
    rename_i hh
    constructor
    · intro h; cases h
    · intro h
      exfalso
      apply hh
      intro a
      match a with
      | ⟨0, _⟩ =>
        show 0 ≤ (vecScat n M wf).start (ix1 e) idx 0 + ((vecScat n M wf).window (ix1 e) 0 : ℕ)
          ∧ (vecScat n M wf).start (ix1 e) idx 0 + ((vecScat n M wf).window (ix1 e) 0 : ℕ) < (n : ℤ)
        rw [hw, hs, h]
        have := i.isLt
        omega

/-- Entry i of the scatter: the operand's entry plus the updates whose index word is i. -/
theorem vecScat_apply {n M : ℕ} (wf : ScatterDims.WF ⟨1, ![n]⟩ ⟨2, ![M, 1]⟩ ⟨1, ![M]⟩ [] [0] [0] 1)
    (z : FVec Ideal ⟨1, ![n]⟩ φ) (idx : IVec ⟨2, ![M, 1]⟩ w) (u : FVec Ideal ⟨1, ![M]⟩ φ) (i : Fin n) :
    Host.scatterAdd (vecScat n M wf) z idx u (ix1 i)
      = z (ix1 i) + ∑ e ∈ Finset.univ.filter (fun e : Fin M => (idx (ix2 e 0)).toInt = (i.val : ℤ)), u (ix1 e) := by
  -- Entry i is the operand's entry plus the sum of the updates that land on i.
  show z (ix1 i) + ∑ j ∈ Finset.univ.filter (fun j => (vecScat n M wf).resultIdx? j idx = some (ix1 i)), u j = _
  congr 1
  -- The updates are indexed by their only coordinate.
  refine Finset.sum_nbij' (fun j => j 0) (fun e => ix1 e) ?_ ?_ ?_ ?_ ?_
  · intro j hj
    have := (Finset.mem_filter.mp hj).2
    rw [eq_ix1 j] at this
    exact Finset.mem_filter.mpr ⟨Finset.mem_univ _, (vecScat_lands wf idx (j 0) i).mp this⟩
  · intro e he
    exact Finset.mem_filter.mpr ⟨Finset.mem_univ _, (vecScat_lands wf idx e i).mpr (Finset.mem_filter.mp he).2⟩
  · intro j _
    exact (eq_ix1 j).symm
  · intro e _
    rfl
  · intro j _
    exact congrArg u (eq_ix1 j)

/-- The dimension numbers of rows of updates [M, C] added into the rows of an [n, C] operand through an [M, 1]
    column of row indices. -/
abbrev rowsScat (n C M : ℕ) (wf : ScatterDims.WF ⟨2, ![n, C]⟩ ⟨2, ![M, 1]⟩ ⟨2, ![M, C]⟩ [1] [0] [0] 1) :
    ScatterDims ⟨2, ![n, C]⟩ ⟨2, ![M, 1]⟩ ⟨2, ![M, C]⟩ where
  updateWindowDims := [1]
  insertedWindowDims := [0]
  scatterDimsToOperandDims := [0]
  indexVectorDim := 1
  wf := wf

/-- The row axis of the operand is an inserted axis: the window coordinate of every update there is 0. -/
private theorem rowsScat_window0 {n C M : ℕ}
    (wf : ScatterDims.WF ⟨2, ![n, C]⟩ ⟨2, ![M, 1]⟩ ⟨2, ![M, C]⟩ [1] [0] [0] 1)
    (j : (⟨2, ![M, C]⟩ : Shape).Idx) : (rowsScat n C M wf).window j 0 = 0 := by
  unfold ScatterDims.window
  rw [dif_neg]
  simp [ScatterDims.sKept, Shape.kept, List.mem_filter]

/-- The column axis of the operand is the window axis: the window coordinate of an update there is its column. -/
private theorem rowsScat_window1 {n C M : ℕ}
    (wf : ScatterDims.WF ⟨2, ![n, C]⟩ ⟨2, ![M, 1]⟩ ⟨2, ![M, C]⟩ [1] [0] [0] 1)
    (e : Fin M) (k : Fin C) : (rowsScat n C M wf).window (ix2 e k) 1 = k.val := by
  unfold ScatterDims.window
  rw [dif_pos (show (1 : Fin 2) ∈ (rowsScat n C M wf).sKept by
    simp [ScatterDims.sKept, Shape.kept, List.mem_filter])]
  rfl

/-- The start of an update of row e on the row axis is the index word of row e, read signed. -/
private theorem rowsScat_start0 {n C M : ℕ}
    (wf : ScatterDims.WF ⟨2, ![n, C]⟩ ⟨2, ![M, 1]⟩ ⟨2, ![M, C]⟩ [1] [0] [0] 1)
    (idx : IVec ⟨2, ![M, 1]⟩ w) (e : Fin M) (k : Fin C) :
    (rowsScat n C M wf).start (ix2 e k) idx 0 = (idx (ix2 e 0)).toInt := by
  unfold ScatterDims.start
  rw [dif_pos (show (0 : Fin 2) ∈ (rowsScat n C M wf).scatterDimsToOperandDims from List.mem_singleton.mpr rfl)]
  have hsi : (rowsScat n C M wf).siIdx (ix2 e k) ⟨List.idxOf (0 : Fin 2) (rowsScat n C M wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The index words name no column: the start on the column axis is 0. -/
private theorem rowsScat_start1 {n C M : ℕ}
    (wf : ScatterDims.WF ⟨2, ![n, C]⟩ ⟨2, ![M, 1]⟩ ⟨2, ![M, C]⟩ [1] [0] [0] 1)
    (idx : IVec ⟨2, ![M, 1]⟩ w) (j : (⟨2, ![M, C]⟩ : Shape).Idx) :
    (rowsScat n C M wf).start j idx 1 = 0 := by
  unfold ScatterDims.start
  have h10 : (1 : Fin 2) ∉ ([0] : List (Fin 2)) := by decide
  rw [dif_neg (show (1 : Fin 2) ∉ (rowsScat n C M wf).scatterDimsToOperandDims from h10)]

/-- Update (e, k) lands on entry (i, c) exactly when the index word of row e, read signed, is i and k is c. -/
theorem rowsScat_lands {n C M : ℕ} (wf : ScatterDims.WF ⟨2, ![n, C]⟩ ⟨2, ![M, 1]⟩ ⟨2, ![M, C]⟩ [1] [0] [0] 1)
    (idx : IVec ⟨2, ![M, 1]⟩ w) (e : Fin M) (k : Fin C) (i : Fin n) (c : Fin C) :
    (rowsScat n C M wf).resultIdx? (ix2 e k) idx = some (ix2 i c)
      ↔ (idx (ix2 e 0)).toInt = (i.val : ℤ) ∧ k = c := by
  have hw0 := rowsScat_window0 wf (ix2 e k)
  have hw1 := rowsScat_window1 wf e k
  have hs0 := rowsScat_start0 wf idx e k
  have hs1 := rowsScat_start1 wf idx (ix2 e k)
  unfold ScatterDims.resultIdx?
  split
  · -- The update lands inside the operand, at start plus window on each axis.
    rename_i hh
    constructor
    · intro h
      have hf := Option.some.inj h
      have hv0 : ((rowsScat n C M wf).start (ix2 e k) idx 0
          + ((rowsScat n C M wf).window (ix2 e k) 0 : ℕ)).toNat = i.val := congrArg Fin.val (congrFun hf 0)
      have hv1 : ((rowsScat n C M wf).start (ix2 e k) idx 1
          + ((rowsScat n C M wf).window (ix2 e k) 1 : ℕ)).toNat = c.val := congrArg Fin.val (congrFun hf 1)
      have h0 := (hh 0).1
      rw [hw0, hs0] at hv0 h0
      rw [hw1, hs1] at hv1
      refine ⟨by omega, Fin.ext (by omega)⟩
    · rintro ⟨h, rfl⟩
      congr 1
      funext a
      refine Fin.ext ?_
      match a with
      | ⟨0, _⟩ =>
        show ((rowsScat n C M wf).start (ix2 e k) idx 0
          + ((rowsScat n C M wf).window (ix2 e k) 0 : ℕ)).toNat = i.val
        rw [hw0, hs0]
        omega
      | ⟨1, _⟩ =>
        show ((rowsScat n C M wf).start (ix2 e k) idx 1
          + ((rowsScat n C M wf).window (ix2 e k) 1 : ℕ)).toNat = k.val
        rw [hw1, hs1]
        omega
  · -- The update is dropped: its index word is outside [0, n).
    rename_i hh
    constructor
    · intro h; cases h
    · rintro ⟨h, rfl⟩
      exfalso
      apply hh
      intro a
      match a with
      | ⟨0, _⟩ =>
        show 0 ≤ (rowsScat n C M wf).start (ix2 e k) idx 0 + ((rowsScat n C M wf).window (ix2 e k) 0 : ℕ)
          ∧ (rowsScat n C M wf).start (ix2 e k) idx 0 + ((rowsScat n C M wf).window (ix2 e k) 0 : ℕ) < (n : ℤ)
        rw [hw0, hs0, h]
        have := i.isLt
        omega
      | ⟨1, _⟩ =>
        show 0 ≤ (rowsScat n C M wf).start (ix2 e k) idx 1 + ((rowsScat n C M wf).window (ix2 e k) 1 : ℕ)
          ∧ (rowsScat n C M wf).start (ix2 e k) idx 1 + ((rowsScat n C M wf).window (ix2 e k) 1 : ℕ) < (C : ℤ)
        rw [hw1, hs1]
        have := k.isLt
        omega

/-- Entry (i, c) of the row scatter: the operand's entry plus column c of the update rows whose index word is i. -/
theorem rowsScat_apply {n C M : ℕ} (wf : ScatterDims.WF ⟨2, ![n, C]⟩ ⟨2, ![M, 1]⟩ ⟨2, ![M, C]⟩ [1] [0] [0] 1)
    (z : FVec Ideal ⟨2, ![n, C]⟩ φ) (idx : IVec ⟨2, ![M, 1]⟩ w) (u : FVec Ideal ⟨2, ![M, C]⟩ φ) (i : Fin n) (c : Fin C) :
    Host.scatterAdd (rowsScat n C M wf) z idx u (ix2 i c)
      = z (ix2 i c) + ∑ e ∈ Finset.univ.filter (fun e : Fin M => (idx (ix2 e 0)).toInt = (i.val : ℤ)), u (ix2 e c) := by
  -- Entry (i, c) is the operand's entry plus the sum of the updates that land on (i, c).
  show z (ix2 i c) + ∑ j ∈ Finset.univ.filter (fun j => (rowsScat n C M wf).resultIdx? j idx = some (ix2 i c)), u j = _
  congr 1
  -- Only the updates of column c land on column c: they are indexed by their row.
  refine Finset.sum_nbij' (fun j => j 0) (fun e => ix2 e c) ?_ ?_ ?_ ?_ ?_
  · intro j hj
    have := (Finset.mem_filter.mp hj).2
    rw [eq_ix2 j] at this
    exact Finset.mem_filter.mpr ⟨Finset.mem_univ _, ((rowsScat_lands wf idx (j 0) (j 1) i c).mp this).1⟩
  · intro e he
    exact Finset.mem_filter.mpr
      ⟨Finset.mem_univ _, (rowsScat_lands wf idx e c i c).mpr ⟨(Finset.mem_filter.mp he).2, rfl⟩⟩
  · intro j hj
    have := (Finset.mem_filter.mp hj).2
    rw [eq_ix2 j] at this
    have hc : j 1 = c := ((rowsScat_lands wf idx (j 0) (j 1) i c).mp this).2
    exact (congrArg (fun k => ix2 (j 0) k) hc.symm).trans (eq_ix2 j).symm
  · intro e _
    rfl
  · intro j hj
    have := (Finset.mem_filter.mp hj).2
    rw [eq_ix2 j] at this
    have hc : j 1 = c := ((rowsScat_lands wf idx (j 0) (j 1) i c).mp this).2
    exact congrArg u ((eq_ix2 j).trans (congrArg (fun k => ix2 (j 0) k) hc))

/-- The dimension numbers of a vector of updates added into an [R, C] matrix through an [M, 2] table of
    (row, column) pairs. -/
abbrev pairScat (R C M : ℕ) (wf : ScatterDims.WF ⟨2, ![R, C]⟩ ⟨2, ![M, 2]⟩ ⟨1, ![M]⟩ [] [0, 1] [0, 1] 1) :
    ScatterDims ⟨2, ![R, C]⟩ ⟨2, ![M, 2]⟩ ⟨1, ![M]⟩ where
  updateWindowDims := []
  insertedWindowDims := [0, 1]
  scatterDimsToOperandDims := [0, 1]
  indexVectorDim := 1
  wf := wf

/-- Both axes of the operand are inserted axes: the window coordinate of every update is 0 on each. -/
private theorem pairScat_window {R C M : ℕ}
    (wf : ScatterDims.WF ⟨2, ![R, C]⟩ ⟨2, ![M, 2]⟩ ⟨1, ![M]⟩ [] [0, 1] [0, 1] 1)
    (j : (⟨1, ![M]⟩ : Shape).Idx) (a : Fin 2) : (pairScat R C M wf).window j a = 0 := by
  unfold ScatterDims.window
  rw [dif_neg]
  have : a = 0 ∨ a = 1 := by omega
  rcases this with rfl | rfl <;> simp [ScatterDims.sKept, Shape.kept, List.mem_filter]

/-- The start of update e on the row axis is the first index word of row e, read signed. -/
private theorem pairScat_start0 {R C M : ℕ}
    (wf : ScatterDims.WF ⟨2, ![R, C]⟩ ⟨2, ![M, 2]⟩ ⟨1, ![M]⟩ [] [0, 1] [0, 1] 1)
    (idx : IVec ⟨2, ![M, 2]⟩ w) (e : Fin M) :
    (pairScat R C M wf).start (ix1 e) idx 0 = (idx (ix2 e 0)).toInt := by
  unfold ScatterDims.start
  have hm : (0 : Fin 2) ∈ (pairScat R C M wf).scatterDimsToOperandDims := by
    show (0 : Fin 2) ∈ ([0, 1] : List (Fin 2)); decide
  rw [dif_pos hm]
  have hsi : (pairScat R C M wf).siIdx (ix1 e) ⟨List.idxOf (0 : Fin 2) (pairScat R C M wf).scatterDimsToOperandDims,
      List.idxOf_lt_length_iff.2 hm⟩ = ix2 e 0 := by
    funext b; refine Fin.ext ?_
    match b with
    | ⟨0, _⟩ => rfl
    | ⟨1, _⟩ => rfl
  rw [hsi]

/-- The start of update e on the column axis is the second index word of row e, read signed. -/
private theorem pairScat_start1 {R C M : ℕ}
    (wf : ScatterDims.WF ⟨2, ![R, C]⟩ ⟨2, ![M, 2]⟩ ⟨1, ![M]⟩ [] [0, 1] [0, 1] 1)
    (idx : IVec ⟨2, ![M, 2]⟩ w) (e : Fin M) :
    (pairScat R C M wf).start (ix1 e) idx 1 = (idx (ix2 e 1)).toInt := by
  unfold ScatterDims.start
  have hm : (1 : Fin 2) ∈ (pairScat R C M wf).scatterDimsToOperandDims := by
    show (1 : Fin 2) ∈ ([0, 1] : List (Fin 2)); decide
  rw [dif_pos hm]
  have hsi : (pairScat R C M wf).siIdx (ix1 e) ⟨List.idxOf (1 : Fin 2) (pairScat R C M wf).scatterDimsToOperandDims,
      List.idxOf_lt_length_iff.2 hm⟩ = ix2 e 1 := by
    funext b; refine Fin.ext ?_
    match b with
    | ⟨0, _⟩ => rfl
    | ⟨1, _⟩ => rfl
  rw [hsi]

/-- Update e lands on entry (p, q) exactly when its pair of index words, read signed, is (p, q). -/
theorem pairScat_lands {R C M : ℕ} (wf : ScatterDims.WF ⟨2, ![R, C]⟩ ⟨2, ![M, 2]⟩ ⟨1, ![M]⟩ [] [0, 1] [0, 1] 1)
    (idx : IVec ⟨2, ![M, 2]⟩ w) (e : Fin M) (p : Fin R) (q : Fin C) :
    (pairScat R C M wf).resultIdx? (ix1 e) idx = some (ix2 p q)
      ↔ (idx (ix2 e 0)).toInt = (p.val : ℤ) ∧ (idx (ix2 e 1)).toInt = (q.val : ℤ) := by
  have hw0 := pairScat_window wf (ix1 e) 0
  have hw1 := pairScat_window wf (ix1 e) 1
  have hs0 := pairScat_start0 wf idx e
  have hs1 := pairScat_start1 wf idx e
  unfold ScatterDims.resultIdx?
  split
  · -- The update lands inside the operand, at its start on each axis.
    rename_i hh
    constructor
    · intro h
      have hf := Option.some.inj h
      have hv0 : ((pairScat R C M wf).start (ix1 e) idx 0
          + ((pairScat R C M wf).window (ix1 e) 0 : ℕ)).toNat = p.val := congrArg Fin.val (congrFun hf 0)
      have hv1 : ((pairScat R C M wf).start (ix1 e) idx 1
          + ((pairScat R C M wf).window (ix1 e) 1 : ℕ)).toNat = q.val := congrArg Fin.val (congrFun hf 1)
      have h0 := (hh 0).1
      have h1 := (hh 1).1
      rw [hw0, hs0] at hv0 h0
      rw [hw1, hs1] at hv1 h1
      exact ⟨by omega, by omega⟩
    · rintro ⟨h0, h1⟩
      congr 1
      funext a
      refine Fin.ext ?_
      match a with
      | ⟨0, _⟩ =>
        show ((pairScat R C M wf).start (ix1 e) idx 0
          + ((pairScat R C M wf).window (ix1 e) 0 : ℕ)).toNat = p.val
        rw [hw0, hs0]
        omega
      | ⟨1, _⟩ =>
        show ((pairScat R C M wf).start (ix1 e) idx 1
          + ((pairScat R C M wf).window (ix1 e) 1 : ℕ)).toNat = q.val
        rw [hw1, hs1]
        omega
  · -- The update is dropped: one of its index words is outside the operand.
    rename_i hh
    constructor
    · intro h; cases h
    · rintro ⟨h0, h1⟩
      exfalso
      apply hh
      intro a
      match a with
      | ⟨0, _⟩ =>
        show 0 ≤ (pairScat R C M wf).start (ix1 e) idx 0 + ((pairScat R C M wf).window (ix1 e) 0 : ℕ)
          ∧ (pairScat R C M wf).start (ix1 e) idx 0 + ((pairScat R C M wf).window (ix1 e) 0 : ℕ) < (R : ℤ)
        rw [hw0, hs0, h0]
        have := p.isLt
        omega
      | ⟨1, _⟩ =>
        show 0 ≤ (pairScat R C M wf).start (ix1 e) idx 1 + ((pairScat R C M wf).window (ix1 e) 1 : ℕ)
          ∧ (pairScat R C M wf).start (ix1 e) idx 1 + ((pairScat R C M wf).window (ix1 e) 1 : ℕ) < (C : ℤ)
        rw [hw1, hs1, h1]
        have := q.isLt
        omega

/-- Entry (p, q) of the pair scatter: the operand's entry plus the updates whose pair of index words is (p, q). -/
theorem pairScat_apply {R C M : ℕ} (wf : ScatterDims.WF ⟨2, ![R, C]⟩ ⟨2, ![M, 2]⟩ ⟨1, ![M]⟩ [] [0, 1] [0, 1] 1)
    (z : FVec Ideal ⟨2, ![R, C]⟩ φ) (idx : IVec ⟨2, ![M, 2]⟩ w) (u : FVec Ideal ⟨1, ![M]⟩ φ) (p : Fin R) (q : Fin C) :
    Host.scatterAdd (pairScat R C M wf) z idx u (ix2 p q)
      = z (ix2 p q) + ∑ e ∈ Finset.univ.filter
          (fun e : Fin M => (idx (ix2 e 0)).toInt = (p.val : ℤ) ∧ (idx (ix2 e 1)).toInt = (q.val : ℤ)), u (ix1 e) := by
  -- Entry (p, q) is the operand's entry plus the sum of the updates that land on (p, q).
  show z (ix2 p q) + ∑ j ∈ Finset.univ.filter (fun j => (pairScat R C M wf).resultIdx? j idx = some (ix2 p q)), u j = _
  congr 1
  -- The updates are indexed by their only coordinate.
  refine Finset.sum_nbij' (fun j => j 0) (fun e => ix1 e) ?_ ?_ ?_ ?_ ?_
  · intro j hj
    have := (Finset.mem_filter.mp hj).2
    rw [eq_ix1 j] at this
    exact Finset.mem_filter.mpr ⟨Finset.mem_univ _, (pairScat_lands wf idx (j 0) p q).mp this⟩
  · intro e he
    exact Finset.mem_filter.mpr ⟨Finset.mem_univ _, (pairScat_lands wf idx e p q).mpr (Finset.mem_filter.mp he).2⟩
  · intro j _
    exact (eq_ix1 j).symm
  · intro e _
    rfl
  · intro j _
    exact congrArg u (eq_ix1 j)

/-- The dimension numbers of a vector gathered through an [M, 1] column of indices. -/
abbrev vecGather (n M : ℕ) (wf : GatherDims.WF ⟨1, ![n]⟩ ⟨2, ![M, 1]⟩ ⟨1, ![M]⟩ [] [0] [] [0] [] 1 ![1]) :
    GatherDims ⟨1, ![n]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gather: the vector at the index word of row e, read signed and clamped into the vector. -/
theorem vecGather_apply {α : Type} {n M : ℕ} (hn : 0 < n)
    (wf : GatherDims.WF ⟨1, ![n]⟩ ⟨2, ![M, 1]⟩ ⟨1, ![M]⟩ [] [0] [] [0] [] 1 ![1])
    (x : (⟨1, ![n]⟩ : Shape).Idx → α) (idx : IVec ⟨2, ![M, 1]⟩ w) (e : Fin M) :
    Host.gather (vecGather n M wf) x idx (ix1 e)
      = x (ix1 ⟨min (idx (ix2 e 0)).toInt.toNat (n - 1), by omega⟩) := by
  unfold Host.gather
  congr 1
  funext a
  refine Fin.ext ?_
  match a with
  | ⟨0, _⟩ =>
    -- The only axis is collapsed and indexed: no batching coordinate, no offset coordinate, and the start is the
    -- index word of row e clamped into [0, n − 1].
    show (vecGather n M wf).start (ix1 e) idx 0 + (vecGather n M wf).batchCoord (ix1 e) 0
      + (vecGather n M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather n M wf).startIndexMap from List.mem_singleton.mpr rfl)]
    have hsi : (vecGather n M wf).siIdx (ix1 e) ⟨List.idxOf (0 : Fin 1) (vecGather n M wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- A word below 2^31 is not negative when read signed. -/
private theorem not_slt_zero (a : BitVec 32) (ha31 : a.toNat < 2 ^ 31) : ¬ IntOp.cmpi .slt a 0#32 = 1 := by
  have h0 : (0#32).toNat < 2 ^ 31 := by decide
  intro h
  have hlt := (StableHlo.Predicate.slt_iff_toNat ha31 h0).mp h
  simp at hlt

/-- NumPy's rule for a negative index (add the extent) leaves an index word already in [0, T) alone, and its signed
    reading is its value. -/
theorem wrap_toInt (a n : BitVec 32) (T : ℕ) (ha : a.toNat < T) (hT : T ≤ 2 ^ 31) :
    (Scalar.select (IntOp.cmpi .slt a 0#32) (IntOp.addi a n) a).toInt = (a.toNat : ℤ) := by
  have ha31 : a.toNat < 2 ^ 31 := by omega
  unfold Scalar.select
  rw [if_neg (not_slt_zero a ha31), StableHlo.Predicate.toInt_eq_toNat_of_lt ha31]

/-- The same rule followed by the clamp into [0, T − 1]. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  rw [wrap_toInt a n T ha hT, Int.toNat_natCast]
  omega

end Cert.ScatterRead

end
-- ==== Proof.Common.lean ====
/-
  The graph of the two layers as plain functions: an index vector of edge endpoints whose words all lie in
  [0, 10000) names a node per edge; the degree of a node in such a vector is the number of edges whose word is that
  node, and its normalisation factor is the inverse square root of the degree, the degree raised to at least one.
  Matrices and vectors are read through their coordinates; a [10000, C] matrix padded with zero rows to
  [10240, C] agrees with the matrix on the first 10000 rows.
-/
import proofs.«430124_j2216203125270_2_alg».proof.Proof.SpecDefs
import proofs.«430124_j2216203125270_2_alg».proof.Proof.LibScatterRead

noncomputable section

open Idealize.ShloMosaic Idealize.ShloMosaic.ValueIdx

namespace Cert.GC

/-- Every word of the index vector is a node: it lies in [0, 10000). -/
def InRange (v : IVec ⟨1, ![640000]⟩ 32) : Prop := ∀ e : Fin 640000, (v (ix1 e)).toNat < 10000

/-- The node an edge's word names. -/
def nodeOf (v : IVec ⟨1, ![640000]⟩ 32) (h : InRange v) (e : Fin 640000) : Fin 10000 := ⟨(v (ix1 e)).toNat, h e⟩

/-- The nodes among the padded rows. -/
def emb : Fin 10000 → Fin 10240 := Fin.castLE (by norm_num)

theorem emb_injective : Function.Injective emb := Fin.castLE_injective _

@[simp] theorem emb_val (v : Fin 10000) : (emb v).val = v.val := rfl

/-- The number of edges whose word, read signed, is node i. -/
def deg (v : IVec ⟨1, ![640000]⟩ 32) (i : Fin 10000) : ℕ :=
  (Finset.univ.filter fun e : Fin 640000 => (v (ix1 e)).toInt = (i.val : ℤ)).card

/-- The normalisation factor of node i: the inverse square root of its degree raised to at least one. -/
def nrm (v : IVec ⟨1, ![640000]⟩ 32) (i : Fin 10000) : EReal := Ideal.rsqrt (max (((deg v i : ℕ) : ℝ) : EReal) 1)

/-- The normalisation factor is a real number. -/
theorem nrm_isReal (v : IVec ⟨1, ![640000]⟩ 32) (i : Fin 10000) : IsReal (nrm v i) := by
  unfold nrm
  -- The degree raised to at least one is a real number, and it is positive.
  have hmax : max (((deg v i : ℕ) : ℝ) : EReal) 1 = ((max ((deg v i : ℕ) : ℝ) 1 : ℝ) : EReal) := by
    rw [← EReal.coe_one]
    exact (EReal.coe_strictMono.monotone.map_max).symm
  have hpos : (0 : ℝ) < max ((deg v i : ℕ) : ℝ) 1 := lt_of_lt_of_le one_pos (le_max_right _ _)
  -- The inverse square root of a positive real is the real  1 / sqrt .
  rw [hmax, Ideal.rsqrt_coe, if_neg (not_lt.mpr hpos.le), if_neg hpos.ne']
  exact ⟨_, rfl⟩

/-- THE NORMALISATION VECTOR READ AT A NODE: ones added into zeros through the column of the index vector, raised to
    at least one, inverse square root. -/
theorem normVec_apply {φ : FTy} (wf : ScatterDims.WF ⟨1, ![10000]⟩ ⟨2, ![640000, 1]⟩ ⟨1, ![640000]⟩ [] [0] [0] 1)
    (v : IVec ⟨1, ![640000]⟩ 32) (z o : FVec Ideal ⟨1, ![10000]⟩ φ) (u : FVec Ideal ⟨1, ![640000]⟩ φ)
    (col : IVec ⟨2, ![640000, 1]⟩ 32) (hz : ∀ j, z j = 0) (ho : ∀ j, o j = 1) (hu : ∀ j, u j = 1)
    (hcol : ∀ e : Fin 640000, col (ix2 e 0) = v (ix1 e)) (i : Fin 10000) :
    Host.rsqrt (maximumf (Host.scatterAdd (ScatterRead.vecScat 10000 640000 wf) z col u) o) (ix1 i) = nrm v i := by
  -- The inverse square root and the maximum act entry by entry.
  show Ideal.rsqrt (max (Host.scatterAdd (ScatterRead.vecScat 10000 640000 wf) z col u (ix1 i)) (o (ix1 i))) = nrm v i
  -- Entry i of the scatter is the number of edges whose word is i.
  rw [ScatterRead.vecScat_apply, hz, ho, zero_add, Finset.sum_congr rfl (fun e _ => hu (ix1 e))]
  have hf : Finset.univ.filter (fun e : Fin 640000 => (col (ix2 e 0)).toInt = (i.val : ℤ))
      = Finset.univ.filter (fun e : Fin 640000 => (v (ix1 e)).toInt = (i.val : ℤ)) :=
    Finset.filter_congr (fun e _ => by rw [hcol e])
  rw [hf]
  -- A sum of ones over the edges whose word is i is their number.
  unfold nrm deg
  simp only [Finset.sum_const, nsmul_one, EReal.coe_natCast]

/-- A matrix through its coordinates. -/
def mat {a b : ℕ} (x : (⟨2, ![a, b]⟩ : Shape).Idx → EReal) (i : Fin a) (c : Fin b) : EReal := x (ix2 i c)

/-- A vector through its coordinate. -/
def vec {n : ℕ} (x : (⟨1, ![n]⟩ : Shape).Idx → EReal) (k : Fin n) : EReal := x (ix1 k)

/-- Zero rows appended below the 10000 rows of a matrix. -/
def padRows {C : ℕ} (x : Fin 10000 → Fin C → EReal) (p : Fin 10240) (c : Fin C) : EReal :=
  if h : p.val < 10000 then x ⟨p.val, h⟩ c else 0

theorem padRows_emb {C : ℕ} (x : Fin 10000 → Fin C → EReal) (v : Fin 10000) (c : Fin C) :
    padRows x (emb v) c = x v c := by
  unfold padRows
  rw [dif_pos (by rw [emb_val]; exact v.isLt)]
  rfl

end Cert.GC

end
-- ==== Proof.Spec.lean ====
/-
  The two ways of writing two graph-convolution layers (SpecDefs) agree at the nodes when every entry is a real
  number: matrix multiplication is associative, and a factor that depends only on the destination node comes out of
  the sum over the edges that land there.
-/
import proofs.«430124_j2216203125270_2_alg».proof.Proof.SpecDefs

noncomputable section

namespace Cert.GC

open Finset

variable {ι ν π γ : Type} [Fintype ι] [Fintype ν] [Fintype π] [Fintype γ] [DecidableEq ν] [DecidableEq π]

/-- The inclusion of the reals in the extended reals is monotone, so it commutes with max. -/
theorem coe_max_real (x y : ℝ) : ((max x y : ℝ) : EReal) = max (x : EReal) (y : EReal) :=
  EReal.coe_strictMono.monotone.map_max

/-- The inclusion of the reals in the extended reals commutes with finite sums. -/
theorem coe_sum_real {α : Type} (t : Finset α) (f : α → ℝ) :
    ((∑ a ∈ t, f a : ℝ) : EReal) = ∑ a ∈ t, (f a : EReal) := by
  classical
  refine Finset.induction_on t ?_ ?_
  · simp
  · intro a t ha ih
    rw [Finset.sum_insert ha, Finset.sum_insert ha, EReal.coe_add, ih]

/-- One layer over the reals, aggregate first, with a single clip. -/
def realLayer (s d : ι → ν) (ew : ι → ℝ) (ns nd : ν → ℝ) (h : ν → γ → ℝ) (W : γ → γ → ℝ) (b : γ → ℝ)
    (i : ν) (k : γ) : ℝ :=
  max ((∑ c, (∑ e ∈ univ.filter (fun e => d e = i), h (s e) c * ns (s e) * ew e) * W c k) * nd i + b k) 0

/-- On real data the aggregate-first layer is the real layer: the second clip changes nothing and every
    operation commutes with the inclusion of the reals. -/
theorem refLayer_coe (s d : ι → ν) (ew : ι → ℝ) (ns nd : ν → ℝ) (h : ν → γ → ℝ) (W : γ → γ → ℝ) (b : γ → ℝ)
    (i : ν) (k : γ) :
    refLayer s d (fun e => (ew e : EReal)) (fun v => (ns v : EReal)) (fun v => (nd v : EReal))
      (fun v c => (h v c : EReal)) (fun c k => (W c k : EReal)) (fun k => (b k : EReal)) i k
      = ((realLayer s d ew ns nd h W b i k : ℝ) : EReal) := by
  unfold refLayer realLayer
  rw [max_eq_left (le_max_right _ _)]
  simp only [coe_max_real, EReal.coe_add, EReal.coe_mul, coe_sum_real, EReal.coe_zero]

/-- A column of the adjacency matrix outside the nodes is zero: no edge has its source there. -/
theorem adjMat_eq_zero (s d : ι → ν) (emb : ν → π) (ew : ι → EReal) (ns nd : ν → EReal) (p q : π)
    (hq : q ∉ Set.range emb) : adjMat s d emb ew ns nd p q = 0 := by
  unfold adjMat
  apply Finset.sum_eq_zero
  intro e he
  rw [Finset.mem_filter] at he
  exact absurd ⟨s e, he.2.2⟩ hq

/-- An entry of the adjacency matrix between two nodes: the edges from the one to the other. -/
theorem adjMat_emb (s d : ι → ν) (emb : ν → π) (hemb : Function.Injective emb) (ew : ι → EReal)
    (ns nd : ν → EReal) (i v : ν) :
    adjMat s d emb ew ns nd (emb i) (emb v)
      = ∑ e ∈ (univ.filter (fun e => d e = i)).filter (fun e => s e = v), ew e * ns (s e) * nd (d e) := by
  unfold adjMat
  rw [Finset.filter_filter]
  refine Finset.sum_congr ?_ (fun _ _ => rfl)
  apply Finset.filter_congr
  intro e _
  rw [hemb.eq_iff, hemb.eq_iff]

/-- Over the reals: the dense product, summed source node by source node, is the aggregate-first product.
    Inside the block of edges from v to i the source is v and the destination is i; the blocks partition the
    edges that land at i; the factor nd i comes out of the sum. -/
theorem real_sum_identity (s d : ι → ν) (ew : ι → ℝ) (ns nd : ν → ℝ) (h : ν → γ → ℝ) (W : γ → γ → ℝ)
    (i : ν) (k : γ) :
    ∑ v, (∑ e ∈ (univ.filter (fun e => d e = i)).filter (fun e => s e = v), ew e * ns (s e) * nd (d e))
          * ∑ c, h v c * W c k
      = (∑ c, (∑ e ∈ univ.filter (fun e => d e = i), h (s e) c * ns (s e) * ew e) * W c k) * nd i := by
  have h1 : ∀ v, (∑ e ∈ (univ.filter (fun e => d e = i)).filter (fun e => s e = v),
          ew e * ns (s e) * nd (d e)) * ∑ c, h v c * W c k
        = ∑ e ∈ (univ.filter (fun e => d e = i)).filter (fun e => s e = v),
            ew e * ns (s e) * nd i * ∑ c, h (s e) c * W c k := by
    intro v
    rw [Finset.sum_mul]
    apply Finset.sum_congr rfl
    intro e he
    rw [Finset.mem_filter, Finset.mem_filter] at he
    rw [he.1.2, he.2]
  rw [Finset.sum_congr rfl (fun v _ => h1 v), Finset.sum_fiberwise]
  simp only [Finset.sum_mul, Finset.mul_sum]
  refine Finset.sum_comm.trans ?_
  apply Finset.sum_congr rfl
  intro c _
  apply Finset.sum_congr rfl
  intro e _
  ring

/-- The sum over the larger index type in a dense layer, on real data whose rows at the nodes are the rows of h:
    only the columns at the nodes contribute, and there everything is real. -/
theorem kerSum_coe (s d : ι → ν) (emb : ν → π) (hemb : Function.Injective emb)
    (ew : ι → ℝ) (ns nd : ν → ℝ) (h : ν → γ → ℝ) (W : γ → γ → ℝ)
    (hp : π → γ → EReal) (hhp : ∀ v c, hp (emb v) c = (h v c : EReal)) (i : ν) (k : γ) :
    ∑ q, adjMat s d emb (fun e => (ew e : EReal)) (fun v => (ns v : EReal)) (fun v => (nd v : EReal)) (emb i) q
        * ∑ c, hp q c * (W c k : EReal)
      = (((∑ c, (∑ e ∈ univ.filter (fun e => d e = i), h (s e) c * ns (s e) * ew e) * W c k) * nd i : ℝ)
          : EReal) := by
  rw [← real_sum_identity s d ew ns nd h W i k]
  rw [← Fintype.sum_of_injective emb hemb
    (fun v => adjMat s d emb (fun e => (ew e : EReal)) (fun v => (ns v : EReal)) (fun v => (nd v : EReal))
        (emb i) (emb v) * ∑ c, hp (emb v) c * (W c k : EReal))
    (fun q => adjMat s d emb (fun e => (ew e : EReal)) (fun v => (ns v : EReal)) (fun v => (nd v : EReal))
        (emb i) q * ∑ c, hp q c * (W c k : EReal))
    (fun q hq => by rw [adjMat_eq_zero _ _ _ _ _ _ _ _ hq, zero_mul]) (fun v => rfl)]
  rw [coe_sum_real]
  apply Finset.sum_congr rfl
  intro v _
  rw [adjMat_emb s d emb hemb]
  simp only [hhp, EReal.coe_mul, coe_sum_real]

/-- On real data a dense layer read at a node is the real layer. -/
theorem kerLayer_coe (s d : ι → ν) (emb : ν → π) (hemb : Function.Injective emb)
    (ew : ι → ℝ) (ns nd : ν → ℝ) (h : ν → γ → ℝ) (W : γ → γ → ℝ) (b : γ → ℝ)
    (hp : π → γ → EReal) (hhp : ∀ v c, hp (emb v) c = (h v c : EReal)) (i : ν) (k : γ) :
    kerLayer (adjMat s d emb (fun e => (ew e : EReal)) (fun v => (ns v : EReal)) (fun v => (nd v : EReal)))
        hp (fun c k => (W c k : EReal)) (fun k => (b k : EReal)) (emb i) k
      = ((realLayer s d ew ns nd h W b i k : ℝ) : EReal) := by
  unfold kerLayer realLayer
  rw [coe_max_real, EReal.coe_add, EReal.coe_zero, ← kerSum_coe s d emb hemb ew ns nd h W hp hhp i k]

/-- Two dense layers over the larger index type, read at a node, are two aggregate-first layers, when every entry
    is a real number. The rows of xp outside the nodes are arbitrary. -/
theorem ker_eq_ref (s d : ι → ν) (emb : ν → π) (hemb : Function.Injective emb)
    (ew : ι → EReal) (ns nd : ν → EReal) (x : ν → γ → EReal) (W0 W1 : γ → γ → EReal) (b0 b1 : γ → EReal)
    (hew : ∀ e, IsReal (ew e)) (hns : ∀ v, IsReal (ns v)) (hnd : ∀ v, IsReal (nd v))
    (hx : ∀ v c, IsReal (x v c)) (hW0 : ∀ c k, IsReal (W0 c k)) (hW1 : ∀ c k, IsReal (W1 c k))
    (hb0 : ∀ k, IsReal (b0 k)) (hb1 : ∀ k, IsReal (b1 k))
    (xp : π → γ → EReal) (hxp : ∀ v c, xp (emb v) c = x v c) (i : ν) (k : γ) :
    kerLayer (adjMat s d emb ew ns nd) (kerLayer (adjMat s d emb ew ns nd) xp W0 b0) W1 b1 (emb i) k
      = refLayer s d ew ns nd (refLayer s d ew ns nd x W0 b0) W1 b1 i k := by
  unfold IsReal at hew hns hnd hx hW0 hW1 hb0 hb1
  choose ew' hew' using hew
  choose ns' hns' using hns
  choose nd' hnd' using hnd
  choose x' hx' using hx
  choose W0' hW0' using hW0
  choose W1' hW1' using hW1
  choose b0' hb0' using hb0
  choose b1' hb1' using hb1
  obtain rfl : ew = fun e => (ew' e : EReal) := funext hew'
  obtain rfl : ns = fun v => (ns' v : EReal) := funext hns'
  obtain rfl : nd = fun v => (nd' v : EReal) := funext hnd'
  obtain rfl : x = fun v c => (x' v c : EReal) := funext fun v => funext fun c => hx' v c
  obtain rfl : W0 = fun c k => (W0' c k : EReal) := funext fun c => funext fun k => hW0' c k
  obtain rfl : W1 = fun c k => (W1' c k : EReal) := funext fun c => funext fun k => hW1' c k
  obtain rfl : b0 = fun k => (b0' k : EReal) := funext hb0'
  obtain rfl : b1 = fun k => (b1' k : EReal) := funext hb1'
  -- the first aggregate-first layer is real
  have hR1 : refLayer s d (fun e => (ew' e : EReal)) (fun v => (ns' v : EReal)) (fun v => (nd' v : EReal))
      (fun v c => (x' v c : EReal)) (fun c k => (W0' c k : EReal)) (fun k => (b0' k : EReal))
      = fun v c => ((realLayer s d ew' ns' nd' x' W0' b0' v c : ℝ) : EReal) :=
    funext fun v => funext fun c => refLayer_coe s d ew' ns' nd' x' W0' b0' v c
  rw [hR1, refLayer_coe]
  -- the first dense layer, read at the nodes, is the same real layer, so the second dense layer applies to it
  exact kerLayer_coe s d emb hemb ew' ns' nd' (realLayer s d ew' ns' nd' x' W0' b0') W1' b1' _
    (fun v c => kerLayer_coe s d emb hemb ew' ns' nd' x' W0' b0' xp hxp v c) i k

end Cert.GC

end
-- ==== Proof.PreFacts.lean ====
/-
  The precondition read back. The printed predicate is the conjunction of eight "all" tests: for each of the six
  float inputs, every entry's absolute value is strictly below plus infinity; for each of the two index vectors, every
  word is at least 0 and below 10000, compared signed. Each "all" is a reduction by "and" from 1 into a single
  result, so a result of 1 gives the test at every entry.

  An extended real whose absolute value max x (-x) is strictly below the top element is a real number: at either
  infinity the absolute value is the top element itself. A 32-bit word that is at least 0 and below 10000 read signed has
  its sign bit clear, so its unsigned value is its signed value and lies below 10000.
-/
import proofs.«430124_j2216203125270_2_alg».proof.Pre_finite_inputs
import proofs.«430124_j2216203125270_2_alg».proof.Proof.Gen.Pre_finite_inputs
import proofs.«430124_j2216203125270_2_alg».proof.Proof.Common
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.GC

/-- The scalar shape has one index. -/
instance subsingleton_scalar_idx : Subsingleton (⟨0, ![]⟩ : Shape).Idx := ⟨fun a b => funext fun d => d.elim0⟩

/-- The f32 pattern 0x7F800000 is plus infinity. -/
theorem ofBits_inf : Ideal.ofBits .f32 0x7F800000#32 = (⊤ : EReal) := by
  simp [Ideal.ofBits, Ideal.ieee]

/-- An extended real whose absolute value is strictly below plus infinity is a real number. -/
theorem isReal_of_abs_lt_inf (x : EReal)
    (h : Ideal.cmp .olt (max x (-x)) (Ideal.ofBits .f32 0x7F800000#32) = 1#1) : IsReal x := by
  rw [ofBits_inf] at h
  unfold Ideal.cmp at h
  rw [StableHlo.Predicate.ofBool_eq_one_iff, decide_eq_true_eq] at h
  induction x using EReal.rec with
  | bot => exact absurd h (by simp)
  | coe r => exact ⟨r, rfl⟩
  | top => exact absurd h (by simp)

/-- One float input: the "all" test gives a real number at every entry. -/
theorem all_isReal {s : Shape} {axes : List (Fin s.rank)} (dims : Fin (⟨0, ![]⟩ : Shape).rank → Fin s.rank)
    (hb : (⟨0, ![]⟩ : Shape).BroadcastsInDim s dims) (hr : s.ReducesTo axes ⟨0, ![]⟩)
    (hu : 0 < (⟨0, ![]⟩ : Shape).numel) (x : FVec Ideal s .f32)
    (e : Host.reduce IntOp.andi
          (cmpf .olt (Host.absf x) (broadcastInDim s dims hb (constant ⟨0, ![]⟩ .f32 0x7F800000#32)))
          (constantI ⟨0, ![]⟩ 1 1#1) hr hu ix0 = 1#1) :
    ∀ j, IsReal (x j) := by
  intro j
  exact isReal_of_abs_lt_inf (x j) (Host.reduce_andi_all _ _ hr hu ix0 e j)

/-- A word at least 0 and below 10000, read signed, is below 10000 read unsigned. -/
theorem word_lt (w : BitVec 32)
    (h : IntOp.andi (IntOp.cmpi .sge w 0#32) (IntOp.cmpi .slt w 10000#32) = 1#1) : w.toNat < 10000 := by
  obtain ⟨h0, h1⟩ := IntOp.andi_eq_one.1 h
  rw [IntOp.cmpi_sge] at h0
  rw [IntOp.cmpi_slt] at h1
  have e0 : (0#32 : BitVec 32).toInt = 0 := by decide
  have e1 : (10000#32 : BitVec 32).toInt = 10000 := by decide
  rw [e0] at h0
  rw [e1] at h1
  have hc := BitVec.toInt_eq_toNat_cond w
  have hlt := w.isLt
  split at hc <;> omega

/-- One index vector: the "all" test puts every word in [0, 10000). -/
theorem all_inRange (dims : Fin (⟨0, ![]⟩ : Shape).rank → Fin (⟨1, ![640000]⟩ : Shape).rank)
    (hb : (⟨0, ![]⟩ : Shape).BroadcastsInDim ⟨1, ![640000]⟩ dims)
    {axes : List (Fin (⟨1, ![640000]⟩ : Shape).rank)} (hr : (⟨1, ![640000]⟩ : Shape).ReducesTo axes ⟨0, ![]⟩)
    (hu : 0 < (⟨0, ![]⟩ : Shape).numel) (v : IVec ⟨1, ![640000]⟩ 32)
    (e : Host.reduce IntOp.andi
          (andi (cmpi .sge v (broadcastInDim ⟨1, ![640000]⟩ dims hb (constantI ⟨0, ![]⟩ 32 0#32)))
                (cmpi .slt v (broadcastInDim ⟨1, ![640000]⟩ dims hb (constantI ⟨0, ![]⟩ 32 10000#32))))
          (constantI ⟨0, ![]⟩ 1 1#1) hr hu ix0 = 1#1) :
    InRange v := by
  intro k
  exact word_lt _ (Host.reduce_andi_all _ _ hr hu ix0 e (ix1 k))

/-- The conjunction of two scalar flags, read at the one index. -/
theorem andi_ix0 (a b : IVec ⟨0, ![]⟩ 1) : andi a b ix0 = IntOp.andi (a ix0) (b ix0) := rfl

/-- THE PRECONDITION DECODED: every float entry is a real number and every index word names a node. -/
theorem pre_facts [Cert.Pre_finite_inputs.Facts] (x0 : FVec Ideal ⟨2, ![10000, 128]⟩ .f32)
    (x1 : FVec Ideal ⟨1, ![640000]⟩ .f32) (x2 : FVec Ideal ⟨2, ![128, 128]⟩ .f32) (x3 : FVec Ideal ⟨1, ![128]⟩ .f32)
    (x4 : FVec Ideal ⟨2, ![128, 128]⟩ .f32) (x5 : FVec Ideal ⟨1, ![128]⟩ .f32) (x6 x7 : IVec ⟨1, ![640000]⟩ 32)
    (h : Cert.Pre_finite_inputs.fn (F := Ideal) x0 x1 x2 x3 x4 x5 x6 x7 = fun _ => 1#1) :
    (∀ j, IsReal (x0 j)) ∧ (∀ j, IsReal (x1 j)) ∧ (∀ j, IsReal (x2 j)) ∧ (∀ j, IsReal (x3 j)) ∧ (∀ j, IsReal (x4 j))
      ∧ (∀ j, IsReal (x5 j)) ∧ InRange x6 ∧ InRange x7 := by
  have e := congrFun h ix0
  unfold Cert.Pre_finite_inputs.fn Cert.Pre_finite_inputs.fn_part1 Cert.Pre_finite_inputs.fn_part2 at e
  dsimp only at e
  simp only [andi_ix0, IntOp.andi_eq_one] at e
  obtain ⟨⟨⟨⟨⟨⟨⟨e0, e1⟩, e2⟩, e3⟩, e4⟩, e5⟩, e6⟩, e7⟩ := e
  exact ⟨all_isReal _ _ _ _ x0 e0, all_isReal _ _ _ _ x1 e1, all_isReal _ _ _ _ x2 e2, all_isReal _ _ _ _ x3 e3,
    all_isReal _ _ _ _ x4 e4, all_isReal _ _ _ _ x5 e5, all_inRange _ _ _ _ x6 e6, all_inRange _ _ _ _ x7 e7⟩

end Cert.GC

end
-- ==== Proof.LibRowGather.lean ====
/-
  Rows of a table taken at a column of start indices (jnp's  table[idx]  on a matrix): the result's row p is the
  table's row at  idx[p, 0] , read as a signed integer and clamped into the table; and NumPy's treatment of a
  negative index (add the extent) followed by that clamp does nothing to an index already in range.
-/
import Idealize.ShloMosaic.PureOps
import Idealize.ShloMosaic.Lib.ValueIdx
import Idealize.ShloMosaic.Lib.StableHlo.Predicate

noncomputable section

open Idealize.ShloMosaic Idealize.ShloMosaic.ValueIdx

namespace Cert.RowGather

variable {α : Type}

/-- The dimension numbers of  table[idx]  for a [T, C] table and an [N, 1] column of start indices: axis 0 collapsed
    and indexed, axis 1 an offset axis taken whole. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (p, k): the table at row  idx[p, 0]  (signed, clamped into [0, T − 1]) and column k. -/
theorem gather_rows_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (rowsDims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (rowsDims T C N wf).start (ix2 p k) idx 0 + (rowsDims T C N wf).batchCoord (ix2 p k) 0
      + (rowsDims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 p k) ⟨List.idxOf (0 : Fin 2) (rowsDims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 p k) idx 1 + (rowsDims T C N wf).batchCoord (ix2 p k) 1
      + (rowsDims T C N wf).offCoord (ix2 p k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- A start index already in [0, T): adding the extent when negative and clamping leave its value. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  have ha31 : a.toNat < 2 ^ 31 := by omega
  have h0 : (0#32).toNat < 2 ^ 31 := by decide
  have hc : ¬ IntOp.cmpi .slt a 0#32 = 1 := by
    intro h
    have hlt := (StableHlo.Predicate.slt_iff_toNat ha31 h0).mp h
    simp at hlt
  unfold Scalar.select
  rw [if_neg hc, StableHlo.Predicate.toInt_eq_toNat_of_lt ha31, Int.toNat_natCast]
  omega

end Cert.RowGather

end
-- ==== Proof.RefLayer1.lean ====
/-
  One graph-convolution layer of the reference, read at an index. The layer's input h is any [10000, 128] matrix;
  the edge endpoints are two index vectors whose words all name nodes. Read at (i, k), the layer is
      clip (clip ((sum over c of (sum over the edges e that land on i of h[src e, c] * ns[src e] * w[e]) * W[c, k])
                  * nd[i] + b[k])),
  where ns and nd are the inverse square roots of the out- and in-degrees raised to at least one. The pieces, in
  the order the program computes them: the two normalisation vectors at a node; a row of the scaled input gathered at
  an edge's source (the index first wrapped the NumPy way and clamped, which leaves a word that names a node alone);
  the weighted rows added up at the destinations.
-/
import proofs.«430124_j2216203125270_2_alg».proof.Proof.Gen.ReferenceIdeal.Read
import proofs.«430124_j2216203125270_2_alg».proof.Proof.Common
import proofs.«430124_j2216203125270_2_alg».proof.Proof.LibRowGather
import Idealize.ShloMosaic.Lib.IdealHost

noncomputable section

open Idealize.ShloMosaic Idealize.ShloMosaic.ValueIdx
open Cert.ReferenceIdeal Cert.ReferenceIdeal.Gen Cert.ReferenceIdeal.Read

namespace Cert.GC.Ref

/-- The word 0x00000000 read as a float of the ideal instance is zero. -/
theorem zero_word : (FloatOps.ofBits (F := Ideal) .f32 0x00000000#32) = 0 := Ideal.ofBits_zero_f32

/-- The word 0x3F800000 read as a float of the ideal instance is one. -/
theorem one_word : (FloatOps.ofBits (F := Ideal) .f32 0x3F800000#32) = 1 := Ideal.ofBits_one_f32

/-- A word that names a node reads the same signed and unsigned. -/
theorem toInt_node (a : BitVec 32) (ha : a.toNat < 10000) : a.toInt = (a.toNat : ℤ) :=
  StableHlo.Predicate.toInt_eq_toNat_of_lt (by omega)

/-- The out-degree normalisation vector at node i. -/
theorem ns_read (x6 : (⟨S640000, .i32⟩ : BufTy).Contents (Elt Ideal)) (i : Fin 10000) :
    val_main_v9 (F := Ideal) x6 (ix1 i) = nrm x6 i := by
  unfold val_main_v9 val_main_v8 val_main_v3
  refine normVec_apply (φ := .f32) Facts₀.scatter_S10000_S640000x1_S640000_n_0_0_1_wf x6
    (val_main_v1 (F := Ideal)) (val_main_v7 (F := Ideal)) (val_main_v0 (F := Ideal)) (val_main_v2 (F := Ideal) x6)
    (fun j => ?_) (fun j => ?_) (fun j => ?_) (fun e => ?_) i
  · rw [val_main_v1_apply, val_main_cst_0_apply]; exact zero_word
  · rw [val_main_v7_apply, val_main_cst_2_apply]; exact one_word
  · rw [val_main_v0_apply, val_main_cst_apply]; exact one_word
  · rw [val_main_v2_apply]
    exact congrArg x6 (funext fun a => Fin.ext (by match a with | ⟨0, _⟩ => rfl))

/-- The in-degree normalisation vector at node i. -/
theorem nd_read (x7 : (⟨S640000, .i32⟩ : BufTy).Contents (Elt Ideal)) (i : Fin 10000) :
    val_main_v12 (F := Ideal) x7 (ix1 i) = nrm x7 i := by
  unfold val_main_v12 val_main_v11 val_main_v6
  refine normVec_apply (φ := .f32) Facts₀.scatter_S10000_S640000x1_S640000_n_0_0_1_wf x7
    (val_main_v4 (F := Ideal)) (val_main_v10 (F := Ideal)) (val_main_v0 (F := Ideal)) (val_main_v5 (F := Ideal) x7)
    (fun j => ?_) (fun j => ?_) (fun j => ?_) (fun e => ?_) i
  · rw [val_main_v4_apply, val_main_cst_1_apply]; exact zero_word
  · rw [val_main_v10_apply, val_main_cst_3_apply]; exact one_word
  · rw [val_main_v0_apply, val_main_cst_apply]; exact one_word
  · rw [val_main_v5_apply]
    exact congrArg x7 (funext fun a => Fin.ext (by match a with | ⟨0, _⟩ => rfl))

/-- The start index of edge e: the source word, wrapped and left as it is. -/
theorem start_read (x6 : (⟨S640000, .i32⟩ : BufTy).Contents (Elt Ideal)) (e : Fin 640000) :
    val_main_v21 (F := Ideal) x6 (ix2 e 0)
      = Scalar.select (IntOp.cmpi .slt (x6 (ix1 e)) 0#32) (IntOp.addi (x6 (ix1 e)) 10000#32) (x6 (ix1 e)) := by
  have e1 : idx_main_v21 (ix2 e (0 : Fin 1)) = ix1 e :=
    funext fun a => Fin.ext (by match a with | ⟨0, _⟩ => rfl)
  rw [val_main_v21_apply, e1, val_main_v20_apply, val_main_v17_apply, val_main_v19_apply, val_main_v16_apply,
    val_main_v18_apply, val_main_c_apply, val_main_c_4_apply]

/-- The scaled input's row gathered at the source of edge e, column c. -/
theorem gather_read (h : (⟨S10000x128, .f32⟩ : BufTy).Contents (Elt Ideal))
    (x6 : (⟨S640000, .i32⟩ : BufTy).Contents (Elt Ideal)) (hs : InRange x6) (e : Fin 640000) (c : Fin 128) :
    val_main_v22 (F := Ideal) h x6 (ix2 e c)
      = h (ix2 (nodeOf x6 hs e) c) * nrm x6 (nodeOf x6 hs e) := by
  unfold val_main_v22
  have hrow : min (val_main_v21 (F := Ideal) x6 (ix2 e 0)).toInt.toNat (10000 - 1) = (nodeOf x6 hs e).val := by
    rw [start_read]
    exact Cert.RowGather.wrap_clamp (x6 (ix1 e)) 10000#32 10000 (hs e) (by norm_num)
  refine (Cert.RowGather.gather_rows_apply (T := 10000) (C := 128) (N := 640000) (by norm_num)
    Facts₀.gather_S10000x128_S640000x1_S640000x128_1_0_n_n_0_1_1128_wf
    (val_main_v15 (F := Ideal) h x6) (val_main_v21 (F := Ideal) x6) e c).trans ?_
  refine (congrArg (fun r : Fin 10000 => val_main_v15 (F := Ideal) h x6 (ix2 r c)) (Fin.ext hrow)).trans ?_
  show val_main_v15 (F := Ideal) h x6 (ix2 (nodeOf x6 hs e) c) = _
  have e1 : idx_main_v13 (idx_main_v14 (ix2 (nodeOf x6 hs e) c)) = ix1 (nodeOf x6 hs e) :=
    funext fun a => Fin.ext (by match a with | ⟨0, _⟩ => rfl)
  rw [val_main_v15_apply, val_main_v14_apply, val_main_v13_apply, e1, ns_read]
  rfl

/-- The weighted rows added up at node i, column c. -/
theorem scatter_read (h : (⟨S10000x128, .f32⟩ : BufTy).Contents (Elt Ideal))
    (x1 : (⟨S640000, .f32⟩ : BufTy).Contents (Elt Ideal))
    (x6 x7 : (⟨S640000, .i32⟩ : BufTy).Contents (Elt Ideal)) (hs : InRange x6) (hd : InRange x7)
    (i : Fin 10000) (c : Fin 128) :
    val_main_v28 (F := Ideal) h x1 x6 x7 (ix2 i c)
      = ∑ e ∈ Finset.univ.filter (fun e : Fin 640000 => nodeOf x7 hd e = i),
          h (ix2 (nodeOf x6 hs e) c) * nrm x6 (nodeOf x6 hs e) * x1 (ix1 e) := by
  unfold val_main_v28
  refine (Cert.ScatterRead.rowsScat_apply (n := 10000) (C := 128) (M := 640000)
    Facts₀.scatter_S10000x128_S640000x1_S640000x128_1_0_0_1_wf
    (val_main_v26 (F := Ideal)) (val_main_v27 (F := Ideal) x7) (val_main_v25 (F := Ideal) h x1 x6) i c).trans ?_
  have hz : val_main_v26 (F := Ideal) (ix2 i c) = 0 := by
    rw [val_main_v26_apply, val_main_cst_5_apply]; exact zero_word
  have hcol : ∀ e : Fin 640000, val_main_v27 (F := Ideal) x7 (ix2 e 0) = x7 (ix1 e) := fun e => by
    rw [val_main_v27_apply]
    exact congrArg x7 (funext fun a => Fin.ext (by match a with | ⟨0, _⟩ => rfl))
  rw [hz, zero_add]
  refine Finset.sum_congr (Finset.filter_congr fun e _ => ?_) fun e _ => ?_
  · rw [hcol, toInt_node _ (hd e)]
    constructor
    · intro he; exact Fin.ext (by exact_mod_cast he)
    · intro he; rw [← he]; rfl
  · have e1 : idx_main_v23 (idx_main_v24 (ix2 e c)) = ix1 e :=
      funext fun a => Fin.ext (by match a with | ⟨0, _⟩ => rfl)
    rw [val_main_v25_apply, gather_read h x6 hs, val_main_v24_apply, val_main_v23_apply, e1]
    rfl

end Cert.GC.Ref

end
-- ==== Proof.RefRead.lean ====
/-
  The reference's result read at (i, k): two graph-convolution layers, each in the aggregate-first form. The second
  layer is the first layer's text applied to the first layer's result with the second pair of weights, so one
  statement about a layer over any input matrix serves both.
-/
import proofs.«430124_j2216203125270_2_alg».proof.Proof.RefLayer1

noncomputable section

open Idealize.ShloMosaic Idealize.ShloMosaic.ValueIdx
open Cert.ReferenceIdeal Cert.ReferenceIdeal.Gen Cert.ReferenceIdeal.Read

namespace Cert.GC.Ref

/-- ONE LAYER READ AT (i, k), for any input matrix h. -/
theorem layer_read (h : (⟨S10000x128, .f32⟩ : BufTy).Contents (Elt Ideal))
    (x1 : (⟨S640000, .f32⟩ : BufTy).Contents (Elt Ideal))
    (W : (⟨S128x128, .f32⟩ : BufTy).Contents (Elt Ideal)) (b : (⟨S128, .f32⟩ : BufTy).Contents (Elt Ideal))
    (x6 x7 : (⟨S640000, .i32⟩ : BufTy).Contents (Elt Ideal)) (hs : InRange x6) (hd : InRange x7)
    (i : Fin 10000) (k : Fin 128) :
    val_main_v37 (F := Ideal) h x1 W b x6 x7 (ix2 i k)
      = refLayer (nodeOf x6 hs) (nodeOf x7 hd) (vec x1) (nrm x6) (nrm x7)
          (mat h) (mat W) (vec b) i k := by
  have el : ∀ c : Fin 128, lidx_main_v29 (ix2 i k) c = ix2 i c := fun c =>
    funext fun a => Fin.ext (by match a with | ⟨0, _⟩ => rfl | ⟨1, _⟩ => rfl)
  have er : ∀ c : Fin 128, ridx_main_v29 (ix2 i k) c = ix2 c k := fun c =>
    funext fun a => Fin.ext (by match a with | ⟨0, _⟩ => rfl | ⟨1, _⟩ => rfl)
  have en : idx_main_v30 (idx_main_v31 (ix2 i k)) = ix1 i :=
    funext fun a => Fin.ext (by match a with | ⟨0, _⟩ => rfl)
  have eb : idx_main_v33 (idx_main_v34 (ix2 i k)) = ix1 k :=
    funext fun a => Fin.ext (by match a with | ⟨0, _⟩ => rfl)
  rw [val_main_v37_apply, val_main_v36_apply, val_main_call1_v0_apply, val_main_call1_cst_apply,
    val_main_call0_v0_apply, val_main_call0_cst_apply, val_main_v35_apply, val_main_v32_apply, val_main_v29_apply,
    val_main_v31_apply, val_main_v30_apply, en, nd_read, val_main_v34_apply, val_main_v33_apply, eb, zero_word]
  simp only [el, er, scatter_read h x1 x6 x7 hs hd]
  rfl

/-- The second layer is the first layer's text on the first layer's result. -/
theorem two_layers (x0 : (⟨S10000x128, .f32⟩ : BufTy).Contents (Elt Ideal))
    (x1 : (⟨S640000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 x7 : (⟨S640000, .i32⟩ : BufTy).Contents (Elt Ideal)) :
    val_main_v75 (F := Ideal) x0 x1 x2 x3 x4 x5 x6 x7
      = val_main_v37 (F := Ideal) (val_main_v37 (F := Ideal) x0 x1 x2 x3 x6 x7) x1 x4 x5 x6 x7 := rfl

/-- THE REFERENCE'S RESULT READ AT (i, k). -/
theorem ref_read (x0 : (⟨S10000x128, .f32⟩ : BufTy).Contents (Elt Ideal))
    (x1 : (⟨S640000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 x7 : (⟨S640000, .i32⟩ : BufTy).Contents (Elt Ideal)) (hs : InRange x6) (hd : InRange x7)
    (i : Fin 10000) (k : Fin 128) :
    val_main_v75 (F := Ideal) x0 x1 x2 x3 x4 x5 x6 x7 (ix2 i k)
      = refLayer (nodeOf x6 hs) (nodeOf x7 hd) (vec x1) (nrm x6) (nrm x7)
          (refLayer (nodeOf x6 hs) (nodeOf x7 hd) (vec x1) (nrm x6) (nrm x7)
            (mat x0) (mat x2) (vec x3))
          (mat x4) (vec x5) i k := by
  have h1 : mat (val_main_v37 (F := Ideal) x0 x1 x2 x3 x6 x7)
      = refLayer (nodeOf x6 hs) (nodeOf x7 hd) (vec x1) (nrm x6) (nrm x7)
          (mat x0) (mat x2) (vec x3) :=
    funext fun p => funext fun c => layer_read x0 x1 x2 x3 x6 x7 hs hd p c
  rw [two_layers, layer_read _ x1 x4 x5 x6 x7 hs hd, h1]

end Cert.GC.Ref

end
-- ==== Proof.KerFold.lean ====
/-
  The buffers of the kernel program between its two kernel calls, named and related to one another.

  The program is seven stretches: three of host operations, the first kernel call, one of host operations, the second
  kernel call, one of host operations. The contents of every buffer at each boundary is a fold of the stretches over the
  launch memory. This module names, with their literal array types, the buffers the result is computed through, and
  states what each is in terms of the earlier ones: the result is a format change of a slice of the second call's
  output; the second call's operands are the adjacency matrix (unchanged since the first stretch), the product of the
  first call's output with the second weight matrix, and the second bias as one row; the first call's operands are the
  adjacency matrix again, the product of the padded feature matrix with the first weight matrix, and the first bias as
  one row. An input array of a kernel call is left as the call found it.
-/
import proofs.«430124_j2216203125270_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostValue

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (ρ : Dev nD → PrngReg) (c : Dev nD)

/-! ## The arrays by name -/

/-- The feature matrix as launched. -/
abbrev argX : FVec Ideal S10000x128 .f32 := m ((c.tc : Thread nD τ).loc main_arg0)
/-- The first weight matrix as launched. -/
abbrev argW0 : FVec Ideal S128x128 .f32 := m ((c.tc : Thread nD τ).loc main_arg2)
/-- The first bias as launched. -/
abbrev argB0 : FVec Ideal S128 .f32 := m ((c.tc : Thread nD τ).loc main_arg3)
/-- The second weight matrix as launched. -/
abbrev argW1 : FVec Ideal S128x128 .f32 := m ((c.tc : Thread nD τ).loc main_arg4)
/-- The second bias as launched. -/
abbrev argB1 : FVec Ideal S128 .f32 := m ((c.tc : Thread nD τ).loc main_arg5)
/-- The adjacency matrix after the first stretch of host operations. -/
abbrev adjArr : FVec Ideal S10240x10240 .bf16 := W1 m ρ c (Proc.devRef .tc main_v44)
/-- The first kernel call's output array when the call is left. -/
abbrev out0Arr : FVec Ideal S10240x128 .bf16 := (dat0 (V3 m ρ) c).arrAt 3 cfg0.N
/-- The second kernel call's output array when the call is left. -/
abbrev out1Arr : FVec Ideal S10240x128 .bf16 := (dat1 (V5 m ρ) c).arrAt 3 cfg1.N
/-- The result buffer after the last stretch. -/
abbrev resArr : FVec Ideal S10000x128 .f32 := W7 m ρ c (Proc.devRef .tc main_v56)
/-- The first call's three operands as it finds them: the adjacency matrix, the product, the bias row. -/
abbrev in0A : FVec Ideal S10240x10240 .bf16 := V3 m ρ c main_v44
abbrev in0W : FVec Ideal S10240x128 .bf16 := V3 m ρ c main_v49
abbrev in0B : FVec Ideal S1x128 .f32 := V3 m ρ c main_v46
/-- The second call's three operands as it finds them. -/
abbrev in1A : FVec Ideal S10240x10240 .bf16 := V5 m ρ c main_v44
abbrev in1W : FVec Ideal S10240x128 .bf16 := V5 m ρ c main_v53
abbrev in1B : FVec Ideal S1x128 .f32 := V5 m ρ c main_v47

/-! ## The last stretch: the result is a slice of the second call's output -/

/-- The second call's output array is what the last stretch finds in its buffer. -/
theorem W6_v54 : W6 m ρ c (Proc.devRef .tc main_v54) = out1Arr m ρ c := W6_arr m ρ c 3

theorem res_eq : resArr m ρ c
    = extf .f32 (extractStridedSlice S10000x128 ![0, 0] (out1Arr m ρ c) slices_S10240x128_S10000x128_0_0) bitsLt_bf16_f32 := by
  rw [← W6_v54]
  show StableHlo.after hostOps2 _ (Proc.devRef .tc main_v56) = _
  after_results

/-! ## The second call's operands -/

/-- The adjacency matrix is not written between the first stretch and the first call. -/
theorem in0A_eq : in0A m ρ c = adjArr m ρ c := by
  show StableHlo.after hostOps0_2 (StableHlo.after hostOps0_1 (W1 m ρ c)) (Proc.devRef .tc main_v44) = W1 m ρ c (Proc.devRef .tc main_v44)
  generalize W1 m ρ c = X
  after_results

/-- The first call reads the adjacency matrix through an input window and leaves it as found. -/
theorem W4_v44 : W4 m ρ c (Proc.devRef .tc main_v44) = adjArr m ρ c :=
  (W4_arr m ρ c 0).trans (((dat0 (V3 m ρ) c).arrAt_in 0 rfl cfg0.N).trans ((A_eq0 (V3 m ρ) c 0).trans (in0A_eq m ρ c)))

/-- The adjacency matrix as the second call finds it. -/
theorem in1A_eq : in1A m ρ c = adjArr m ρ c := by
  refine Eq.trans ?_ (W4_v44 m ρ c)
  show StableHlo.after hostOps1 (W4 m ρ c) (Proc.devRef .tc main_v44) = W4 m ρ c (Proc.devRef .tc main_v44)
  generalize W4 m ρ c = X
  after_results

/-- The second bias as one row, as the first call finds it. -/
theorem W3_v47 : W3 m ρ c (Proc.devRef .tc main_v47) = shapeCast S1x128 (argB1 m c) shapeCasts_S128_S1x128 := by
  show StableHlo.after hostOps0_2 _ (Proc.devRef .tc main_v47) = _
  after_results
  rfl

/-- The second bias as one row, as the second call finds it. -/
theorem in1B_eq : in1B m ρ c = shapeCast S1x128 (argB1 m c) shapeCasts_S128_S1x128 := by
  refine Eq.trans ?_ (W3_v47 m ρ c)
  refine Eq.trans ?_ (W4_of_ne m ρ c main_v47 (by decide))
  show StableHlo.after hostOps1 (W4 m ρ c) (Proc.devRef .tc main_v47) = W4 m ρ c (Proc.devRef .tc main_v47)
  generalize W4 m ρ c = X
  after_results

/-- The second weight matrix is as launched when the fourth stretch reads it. -/
theorem W4_arg4 : W4 m ρ c (Proc.devRef .tc main_arg4) = argW1 m c := by
  refine (W4_of_ne m ρ c main_arg4 (by decide)).trans ?_
  show StableHlo.after hostOps0_2 _ (Proc.devRef .tc main_arg4) = _
  after_results

/-- The first call's output array is what the fourth stretch finds in its buffer. -/
theorem W4_v50 : W4 m ρ c (Proc.devRef .tc main_v50) = out0Arr m ρ c := W4_arr m ρ c 3

/-- The product of the first call's output with the second weight matrix, as the second call finds it. -/
theorem in1W_eq : in1W m ρ c
    = truncf .bf16 (Host.dotGeneral dot_S10240x128_S128x128_S10240x128_1_0_0_1_n_n none
        (extf .f32 (out0Arr m ρ c) bitsLt_bf16_f32) (argW1 m c)) bitsLt_bf16_f32 := by
  rw [← W4_v50, ← W4_arg4]
  show StableHlo.after hostOps1 (W4 m ρ c) (Proc.devRef .tc main_v53) = _
  generalize W4 m ρ c = X
  after_results

/-! ## The first call's operands -/

/-- The first bias as one row, as the first call finds it. -/
theorem in0B_eq : in0B m ρ c = shapeCast S1x128 (argB0 m c) shapeCasts_S128_S1x128 := by
  show StableHlo.after hostOps0_2 _ (Proc.devRef .tc main_v46) = _
  after_results
  rfl

/-- The padding stretch from any contents: the padded buffer is the feature buffer padded with the converted integer
    constant. -/
theorem pad_step (X : Valuation τ sig (Elt Ideal)) :
    @Eq (FVec Ideal S10240x128 .f32) (StableHlo.after hostOps0_1 X (Proc.devRef .tc main_v45))
      (pad S10240x128 ![0, 0] ![240, 0] ![0, 0] (X (Proc.devRef .tc main_arg0) : FVec Ideal S10000x128 .f32)
        (sitofp .f32 (X (Proc.devRef .tc main_c_12) : IVec S_ 32)) pads_S10000x128_S10240x128_02400_000 h_S_) := by
  after_results
  rfl

/-- The integer constant the padding value is converted from is zero. -/
theorem W1_c12 : W1 m ρ c (Proc.devRef .tc main_c_12) = constantI S_ 32 0#32 := by
  show StableHlo.after hostOps0 _ (Proc.devRef .tc main_c_12) = _
  after_results

/-- The feature matrix is as launched after the first stretch. -/
theorem W1_arg0 : W1 m ρ c (Proc.devRef .tc main_arg0) = argX m c := by
  show StableHlo.after hostOps0 _ (Proc.devRef .tc main_arg0) = _
  after_results

/-- The padded feature matrix after the second stretch. -/
theorem W2_v45 : @Eq (FVec Ideal S10240x128 .f32) (W2 m ρ c (Proc.devRef .tc main_v45))
    (pad S10240x128 ![0, 0] ![240, 0] ![0, 0] (argX m c) (sitofp .f32 (constantI S_ 32 0#32)) pads_S10000x128_S10240x128_02400_000 h_S_) := by
  refine (pad_step (W1 m ρ c)).trans ?_
  rw [W1_c12, W1_arg0]

/-- The first weight matrix is as launched after the second stretch. -/
theorem W2_arg2 : W2 m ρ c (Proc.devRef .tc main_arg2) = argW0 m c := by
  show StableHlo.after hostOps0_1 _ (Proc.devRef .tc main_arg2) = _
  after_results

/-- The third stretch from any contents: the product buffer is the product of the padded buffer and the first weight
    buffer, its format changed. -/
theorem dot0_step (X : Valuation τ sig (Elt Ideal)) (a : FVec Ideal S10240x128 .f32) (w : FVec Ideal S128x128 .f32)
    (ha : X (Proc.devRef .tc main_v45) = a) (hw : X (Proc.devRef .tc main_arg2) = w) :
    @Eq (FVec Ideal S10240x128 .bf16) (StableHlo.after hostOps0_2 X (Proc.devRef .tc main_v49))
      (truncf .bf16 (Host.dotGeneral dot_S10240x128_S128x128_S10240x128_1_0_0_1_n_n none a w) bitsLt_bf16_f32) := by
  subst ha hw
  after_results

/-- The product of the padded feature matrix with the first weight matrix, as the first call finds it. -/
theorem in0W_eq : in0W m ρ c
    = truncf .bf16 (Host.dotGeneral dot_S10240x128_S128x128_S10240x128_1_0_0_1_n_n none
        (pad S10240x128 ![0, 0] ![240, 0] ![0, 0] (argX m c) (sitofp .f32 (constantI S_ 32 0#32)) pads_S10000x128_S10240x128_02400_000 h_S_)
        (argW0 m c)) bitsLt_bf16_f32 := by
  exact dot0_step (W2 m ρ c) _ _ (W2_v45 m ρ c) (W2_arg2 m ρ c)

end Cert.KernelIdeal.HostValue

end
-- ==== Proof.Region0.lean ====
import proofs.«430124_j2216203125270_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
/-! # Region 0 of the kernel program as a value

The first kernel call runs one body on a grid of 16 points. At point t it reads rows 640 t … 640 t + 639 of the
[10240, 10240] matrix A, the whole [10240, 128] matrix hW and the whole [1, 128] bias row, and writes rows
640 t … 640 t + 639 of the [10240, 128] output: the block of A times hW (into a zero accumulator), plus the bias row
on every row, clipped below at zero. On ideal values the float-format changes are the identity, so entry (p, k) of the
output after the region is  max (∑ q, A p q * hW q k + bias k, 0): the body's value at an index, each block read as rows
of its array, and the 16 row blocks covering the output (row p lies in the block of point p / 640). Everything is stated
at the buffer contents V the region is entered with. -/

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The body's arithmetic at an index -/

/-- The four coordinate facts of the product's operand indices: the left operand is read at (row of the output,
    contracted position), the right operand at (contracted position, column of the output). -/
theorem lhs_R0_0 (i : S640x128.Idx) (q : dot_S640x10240_S10240x128_S640x128_1_0_0_1_n_n.contr.Idx) :
    (dot_S640x10240_S10240x128_S640x128_1_0_0_1_n_n.lhsIdx i q 0).val = (i 0).val := by
  unfold DotDims.lhsIdx
  rw [dif_neg (show ¬(0 : Fin S640x10240.rank) ∈ dot_S640x10240_S10240x128_S640x128_1_0_0_1_n_n.lhsBatch by decide), dif_pos (show (0 : Fin S640x10240.rank) ∈ dot_S640x10240_S10240x128_S640x128_1_0_0_1_n_n.lhsNonContracting by decide)]
  rfl
theorem lhs_R0_1 (i : S640x128.Idx) (q : dot_S640x10240_S10240x128_S640x128_1_0_0_1_n_n.contr.Idx) :
    (dot_S640x10240_S10240x128_S640x128_1_0_0_1_n_n.lhsIdx i q 1).val = (q ⟨0, by decide⟩).val :=
  dot_S640x10240_S10240x128_S640x128_1_0_0_1_n_n.lhsIdx_val_of_single rfl i q
theorem rhs_R0_0 (i : S640x128.Idx) (q : dot_S640x10240_S10240x128_S640x128_1_0_0_1_n_n.contr.Idx) :
    (dot_S640x10240_S10240x128_S640x128_1_0_0_1_n_n.rhsIdx i q 0).val = (q ⟨0, by decide⟩).val :=
  dot_S640x10240_S10240x128_S640x128_1_0_0_1_n_n.rhsIdx_val_of_single rfl i q
theorem rhs_R0_1 (i : S640x128.Idx) (q : dot_S640x10240_S10240x128_S640x128_1_0_0_1_n_n.contr.Idx) :
    (dot_S640x10240_S10240x128_S640x128_1_0_0_1_n_n.rhsIdx i q 1).val = (i 1).val := by
  unfold DotDims.rhsIdx
  rw [dif_neg (show ¬(1 : Fin S10240x128.rank) ∈ dot_S640x10240_S10240x128_S640x128_1_0_0_1_n_n.rhsBatch by decide), dif_pos (show (1 : Fin S10240x128.rank) ∈ dot_S640x10240_S10240x128_S640x128_1_0_0_1_n_n.rhsNonContracting by decide)]
  rfl

/-- The product of a [640, 10240] block with the [10240, 128] matrix into a zero accumulator, at row r and
    column k: the sum over the 10240 contracted positions. -/
theorem matmul_R0_apply (x0 : FVec Ideal S640x10240 .bf16) (x1 : FVec Ideal S10240x128 .bf16) (r : Fin 640) (k : Fin 128) :
    FloatOps.matmul dot_S640x10240_S10240x128_S640x128_1_0_0_1_n_n none x0 x1 (constant (F := Ideal) S640x128 .f32 0x00000000#32) (ix2 r k)
      = ∑ q : Fin 10240, x0 (ix2 r q) * x1 (ix2 q k) := by
  rw [Ideal.matmul_constant_zero_apply, ← Equiv.sum_comp (ValueIdx.contrEquiv1 dot_S640x10240_S10240x128_S640x128_1_0_0_1_n_n 10240 rfl rfl).symm]
  refine Finset.sum_congr rfl fun q _ => ?_
  have hq := ValueIdx.contrEquiv1_symm_val dot_S640x10240_S10240x128_S640x128_1_0_0_1_n_n 10240 rfl rfl q
  have el : dot_S640x10240_S10240x128_S640x128_1_0_0_1_n_n.lhsIdx (ix2 r k) ((ValueIdx.contrEquiv1 dot_S640x10240_S10240x128_S640x128_1_0_0_1_n_n 10240 rfl rfl).symm q) = ix2 r q := funext fun a => Fin.ext (by
    match a with
    | ⟨0, _⟩ => exact lhs_R0_0 _ _
    | ⟨1, _⟩ => exact (lhs_R0_1 _ _).trans hq)
  have er : dot_S640x10240_S10240x128_S640x128_1_0_0_1_n_n.rhsIdx (ix2 r k) ((ValueIdx.contrEquiv1 dot_S640x10240_S10240x128_S640x128_1_0_0_1_n_n 10240 rfl rfl).symm q) = ix2 q k := funext fun a => Fin.ext (by
    match a with
    | ⟨0, _⟩ => exact (rhs_R0_0 _ _).trans hq
    | ⟨1, _⟩ => exact rhs_R0_1 _ _)
  rw [el, er]

/-- The body's value at row r, column k of its block: the row of the A-block times the column of hW, plus the
    bias at k, clipped below at zero (the change of float format is the identity on ideal values). -/
theorem pay_R0_apply (x0 : FVec Ideal S640x10240 .bf16) (x1 : FVec Ideal S10240x128 .bf16) (x2 : FVec Ideal S1x128 .f32)
    (r : Fin 640) (k : Fin 128) :
    (k0_pay1 (F := Ideal) x0 x1 x2) (ix2 r k)
      = max (∑ q : Fin 10240, x0 (ix2 r q) * x1 (ix2 q k) + x2 (ix2 (0 : Fin 1) k)) 0 := by
  unfold k0_pay1
  simp only [shapeCast_self]
  rw [truncf_apply, maximumf_apply, addf_apply, broadcast_apply]
  show max (FloatOps.matmul dot_S640x10240_S10240x128_S640x128_1_0_0_1_n_n none x0 x1 (constant (F := Ideal) S640x128 .f32 0x00000000#32) (ix2 r k) + _) _ = _
  rw [matmul_R0_apply, broadcastTo_1b_ab_apply]
  show max _ (Ideal.ofBits .f32 0x00000000#32) = _
  rw [Ideal.ofBits_zero_f32]

/-! ## The whole-array function, and the arrays as the region finds them -/

variable (V : (c : Dev nD) → (b : Ref sig .tc) → Buf (Elt Ideal) ((c : Thread nD τ).loc b))

/-- The [10240, 10240] matrix A as the region finds it. -/
abbrev Aarr_R0 (c : Dev nD) : FVec Ideal S10240x10240 .bf16 := V c main_v44
/-- The [10240, 128] matrix hW as the region finds it. -/
abbrev Warr_R0 (c : Dev nD) : FVec Ideal S10240x128 .bf16 := V c main_v49
/-- The [1, 128] bias row as the region finds it. -/
abbrev Barr_R0 (c : Dev nD) : FVec Ideal S1x128 .f32 := V c main_v46
/-- The [10240, 128] output array after the region's last grid point. -/
abbrev Oarr_R0 (c : Dev nD) : FVec Ideal S10240x128 .bf16 := (dat0 (F := Ideal) V c).arrAt 3 cfg0.N

/-- max (A · hW + bias, 0), entry by entry: entry (p, k) is row p of A times column k of hW, plus the bias at k,
    clipped below at zero. -/
def G_R0 (A : FVec Ideal S10240x10240 .bf16) (W : FVec Ideal S10240x128 .bf16) (B : FVec Ideal S1x128 .f32) :
    FVec Ideal S10240x128 .bf16 :=
  fun i => max (∑ q : Fin 10240, A (ix2 (n0 := 10240) (i 0) q) * W (ix2 (n1 := 128) q (i 1)) + B (ix2 (n1 := 128) (0 : Fin 1) (i 1))) 0

theorem hz_R0 : (![0, 0] : Fin 2 → Nat) = fun _ => 0 := funext fun a => by fin_cases a <;> rfl

/-- Row r, column k of a block's body value is entry (p, k) of the whole-array function as soon as row r of the
    A-block is row p of A and the other two blocks are the whole hW and bias. -/
theorem point_R0 (x0 : FVec Ideal S640x10240 .bf16) (x1 : FVec Ideal S10240x128 .bf16) (x2 : FVec Ideal S1x128 .f32)
    (A : FVec Ideal S10240x10240 .bf16) (W : FVec Ideal S10240x128 .bf16) (B : FVec Ideal S1x128 .f32)
    (j : S640x128.Idx) (i : S10240x128.Idx) (hi1 : (i 1).val = (j 1).val)
    (h0 : ∀ (x : S640x10240.Idx) (y : S10240x10240.Idx), (x 0).val = (j 0).val → (y 0).val = (i 0).val →
      (y 1).val = (x 1).val → x0 x = A y)
    (h1 : x1 = W) (h2 : x2 = B) :
    k0_pay1 (F := Ideal) x0 x1 x2 j = G_R0 A W B i := by
  obtain ⟨r, k, rfl⟩ : ∃ (r : Fin 640) (k : Fin 128), j = ix2 r k := ⟨j 0, j 1, eq_ix2 j⟩
  obtain ⟨p, k', rfl⟩ : ∃ (p : Fin 10240) (k' : Fin 128), i = ix2 p k' := ⟨i 0, i 1, eq_ix2 i⟩
  obtain rfl : k' = k := Fin.ext hi1
  subst h1 h2
  rw [pay_R0_apply]
  show _ = max (∑ q : Fin 10240, A (ix2 p q) * x1 (ix2 q k') + x2 (ix2 (0 : Fin 1) k')) 0
  have e : ∀ q : Fin 10240, x0 (ix2 r q) = A (ix2 p q) := fun q => h0 _ _ rfl rfl rfl
  simp only [e]

/-! ## The blocks of a grid point -/

/-- The block indices, decided over the 16 grid points: the A-block and the output block of point t are the t-th
    row blocks; hW and the bias are fetched whole. -/
theorem idx_R0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's A-block is rows 640 t … 640 t + 639 of A. -/
theorem blkA_R0 (c : Dev nD) (t : Fin cfg0.N) (x : S640x10240.Idx) (y : S10240x10240.Idx)
    (h0 : (y 0).val = t.val * 640 + (x 0).val) (h1 : (y 1).val = (x 1).val) :
    (iblk0 V c 0 t : FVec Ideal S640x10240 .bf16) x = Aarr_R0 V c y := by
  obtain ⟨e0, e1, -⟩ := idx_R0 t
  unfold iblk0
  rw [View.read_apply]
  show V c main_v44 _ = V c main_v44 _
  congr 1
  funext a
  apply Fin.ext
  match a with
  | ⟨0, _⟩ => show win0_0.index t (0 : Fin 2) * 640 + 1 * (x 0).val = (y 0).val; rw [e0, h0]; omega
  | ⟨1, _⟩ => show win0_0.index t (1 : Fin 2) * 10240 + 1 * (x 1).val = (y 1).val; rw [e1, h1]; omega

/-- Every point's hW-block is the whole of hW. -/
theorem blkW_R0 (c : Dev nD) (t : Fin cfg0.N) : (iblk0 V c 1 t : FVec Ideal S10240x128 .bf16) = Warr_R0 V c := by
  obtain ⟨-, -, e2, e3, -⟩ := idx_R0 t
  funext x
  unfold iblk0
  rw [View.read_apply]
  show V c main_v49 _ = V c main_v49 _
  congr 1
  funext a
  apply Fin.ext
  match a with
  | ⟨0, _⟩ => show win0_1.index t (0 : Fin 2) * 10240 + 1 * (x 0).val = (x 0).val; rw [e2]; omega
  | ⟨1, _⟩ => show win0_1.index t (1 : Fin 2) * 128 + 1 * (x 1).val = (x 1).val; rw [e3]; omega

/-- Every point's bias block is the whole bias row. -/
theorem blkB_R0 (c : Dev nD) (t : Fin cfg0.N) : (iblk0 V c 2 t : FVec Ideal S1x128 .f32) = Barr_R0 V c := by
  obtain ⟨-, -, -, -, e4, e5, -⟩ := idx_R0 t
  funext x
  unfold iblk0
  rw [View.read_apply]
  show V c main_v46 _ = V c main_v46 _
  congr 1
  funext a
  apply Fin.ext
  match a with
  | ⟨0, _⟩ => show win0_2.index t (0 : Fin 2) * 1 + 1 * (x 0).val = (x 0).val; rw [e4]; omega
  | ⟨1, _⟩ => show win0_2.index t (1 : Fin 2) * 128 + 1 * (x 1).val = (x 1).val; rw [e5]; omega

/-- What point t writes back is its row block of the whole-array function of A, hW and the bias. -/
theorem flushed_R0 (c : Dev nD) (t : Fin cfg0.N) :
    (dat0 V c).flushed 3 t
      = ((cfg0.win 3).blk t).view.read (Elt Ideal) (G_R0 (Aarr_R0 V c) (Warr_R0 V c) (Barr_R0 V c)) := by
  show (cfg0.win 3).cut (grid0.coords t) ((dat0 V c).after 3 t) = _
  rw [after0_3]
  unfold out0_3
  rw [View.canon_unit_zero hz_R0]
  simp only [View.ld_unit_zero (S := S640x10240) hz_R0, View.ld_unit_zero (S := S10240x128) hz_R0, View.ld_unit_zero (S := S1x128) hz_R0]
  obtain ⟨-, -, -, -, -, -, e6, e7⟩ := idx_R0 t
  funext j
  show k0_pay1 (F := Ideal) (iblk0 V c 0 t) (iblk0 V c 1 t) (iblk0 V c 2 t) j
    = G_R0 (Aarr_R0 V c) (Warr_R0 V c) (Barr_R0 V c) (((cfg0.win 3).blk t).view.emb j)
  have hj0 : ((((cfg0.win 3).blk t).view.emb j) 0).val = t.val * 640 + (j 0).val := by
    show win0_3.index t (0 : Fin 2) * 640 + 1 * (j 0).val = _; rw [e6]; omega
  have hj1 : ((((cfg0.win 3).blk t).view.emb j) 1).val = (j 1).val := by
    show win0_3.index t (1 : Fin 2) * 128 + 1 * (j 1).val = _; rw [e7]; omega
  refine point_R0 (iblk0 V c 0 t) (iblk0 V c 1 t) (iblk0 V c 2 t) (Aarr_R0 V c) (Warr_R0 V c) (Barr_R0 V c) j
    (((cfg0.win 3).blk t).view.emb j) hj1 (fun x y hx hy hxy => ?_) (blkW_R0 V c t) (blkB_R0 V c t)
  exact blkA_R0 V c t x y (by rw [hy, hj0, hx]) hxy

/-! ## The blocks cover the array -/

/-- An index of the output array is in point t's block iff each coordinate is in the block's range on its axis. -/
theorem mem_blk_R0 (t : Fin cfg0.N) (i : S10240x128.Idx) :
    i ∈ ((cfg0.win 3).blk t).view.set ↔ ∀ a : Fin 2, win0_3.index t a * S640x128.size a ≤ (i a).val ∧ (i a).val < win0_3.index t a * S640x128.size a + S640x128.size a := by
  show i ∈ ((View.whole main_v50).slice (win0_3.rect t)).set ↔ _
  rw [View.set_slice_whole, Rect.mem_set_unit]
  exact Iff.rfl

/-- Row p of the output lies in the block of point p / 640, and every point writes its block back. -/
theorem cover_R0 (i : S10240x128.Idx) :
    ∃ t : Fin cfg0.N, (cfg0.win 3).flush t = true ∧ i ∈ ((cfg0.win 3).blk t).view.set := by
  have hi0 : (i 0).val < 10240 := (i 0).isLt
  have hi1 : (i 1).val < 128 := (i 1).isLt
  have hN : grid0.N = 16 := N_0
  obtain ⟨t, ht⟩ : ∃ t : Fin cfg0.N, t.val = (i 0).val / 640 :=
    ⟨⟨(i 0).val / 640, by show _ < grid0.N; rw [hN]; omega⟩, rfl⟩
  obtain ⟨-, -, -, -, -, -, e6, e7⟩ := idx_R0 t
  refine ⟨t, flush0_3 t, ?_⟩
  rw [mem_blk_R0]
  intro a
  match a with
  | ⟨0, _⟩ => show win0_3.index t (0 : Fin 2) * 640 ≤ (i 0).val ∧ (i 0).val < win0_3.index t (0 : Fin 2) * 640 + 640; rw [e6, ht]; omega
  | ⟨1, _⟩ => show win0_3.index t (1 : Fin 2) * 128 ≤ (i 1).val ∧ (i 1).val < win0_3.index t (1 : Fin 2) * 128 + 128; rw [e7]; omega

/-! ## The region's value -/

/-- After the region the output array is max (A · hW + bias, 0). -/
theorem final_R0 (c : Dev nD) :
    Oarr_R0 V c = G_R0 (Aarr_R0 V c) (Warr_R0 V c) (Barr_R0 V c) :=
  (dat0 V c).arrAt_eq_of_cover 3 (G_R0 (Aarr_R0 V c) (Warr_R0 V c) (Barr_R0 V c)) (fun t _ => flushed_R0 V c t) cover_R0

/-- Entry (p, k) of the region's output: row p of A times column k of hW, plus the bias at k, clipped below at zero. -/
theorem region0_value (c : Dev nD) (p : Fin 10240) (k : Fin 128) :
    Oarr_R0 V c (ix2 p k)
      = max (∑ q : Fin 10240, Aarr_R0 V c (ix2 p q) * Warr_R0 V c (ix2 q k) + Barr_R0 V c (ix2 (0 : Fin 1) k)) 0 :=
  congrFun (final_R0 V c) (ix2 p k)

end Cert.KernelIdeal.RegionValue

end
-- ==== Proof.Region1.lean ====
import proofs.«430124_j2216203125270_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
/-! # Region 1 of the kernel program as a value

The second kernel call runs one body on a grid of 16 points. At point t it reads rows 640 t … 640 t + 639 of the
[10240, 10240] matrix A, the whole [10240, 128] matrix hW and the whole [1, 128] bias row, and writes rows
640 t … 640 t + 639 of the [10240, 128] output: the block of A times hW (into a zero accumulator), plus the bias row
on every row, clipped below at zero. On ideal values the float-format changes are the identity, so entry (p, k) of the
output after the region is  max (∑ q, A p q * hW q k + bias k, 0): the body's value at an index, each block read as rows
of its array, and the 16 row blocks covering the output (row p lies in the block of point p / 640). Everything is stated
at the buffer contents V the region is entered with. -/

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The body's arithmetic at an index -/

/-- The four coordinate facts of the product's operand indices: the left operand is read at (row of the output,
    contracted position), the right operand at (contracted position, column of the output). -/
theorem lhs_R1_0 (i : S640x128.Idx) (q : dot_S640x10240_S10240x128_S640x128_1_0_0_1_n_n.contr.Idx) :
    (dot_S640x10240_S10240x128_S640x128_1_0_0_1_n_n.lhsIdx i q 0).val = (i 0).val := by
  unfold DotDims.lhsIdx
  rw [dif_neg (show ¬(0 : Fin S640x10240.rank) ∈ dot_S640x10240_S10240x128_S640x128_1_0_0_1_n_n.lhsBatch by decide), dif_pos (show (0 : Fin S640x10240.rank) ∈ dot_S640x10240_S10240x128_S640x128_1_0_0_1_n_n.lhsNonContracting by decide)]
  rfl
theorem lhs_R1_1 (i : S640x128.Idx) (q : dot_S640x10240_S10240x128_S640x128_1_0_0_1_n_n.contr.Idx) :
    (dot_S640x10240_S10240x128_S640x128_1_0_0_1_n_n.lhsIdx i q 1).val = (q ⟨0, by decide⟩).val :=
  dot_S640x10240_S10240x128_S640x128_1_0_0_1_n_n.lhsIdx_val_of_single rfl i q
theorem rhs_R1_0 (i : S640x128.Idx) (q : dot_S640x10240_S10240x128_S640x128_1_0_0_1_n_n.contr.Idx) :
    (dot_S640x10240_S10240x128_S640x128_1_0_0_1_n_n.rhsIdx i q 0).val = (q ⟨0, by decide⟩).val :=
  dot_S640x10240_S10240x128_S640x128_1_0_0_1_n_n.rhsIdx_val_of_single rfl i q
theorem rhs_R1_1 (i : S640x128.Idx) (q : dot_S640x10240_S10240x128_S640x128_1_0_0_1_n_n.contr.Idx) :
    (dot_S640x10240_S10240x128_S640x128_1_0_0_1_n_n.rhsIdx i q 1).val = (i 1).val := by
  unfold DotDims.rhsIdx
  rw [dif_neg (show ¬(1 : Fin S10240x128.rank) ∈ dot_S640x10240_S10240x128_S640x128_1_0_0_1_n_n.rhsBatch by decide), dif_pos (show (1 : Fin S10240x128.rank) ∈ dot_S640x10240_S10240x128_S640x128_1_0_0_1_n_n.rhsNonContracting by decide)]
  rfl

/-- The product of a [640, 10240] block with the [10240, 128] matrix into a zero accumulator, at row r and
    column k: the sum over the 10240 contracted positions. -/
theorem matmul_R1_apply (x0 : FVec Ideal S640x10240 .bf16) (x1 : FVec Ideal S10240x128 .bf16) (r : Fin 640) (k : Fin 128) :
    FloatOps.matmul dot_S640x10240_S10240x128_S640x128_1_0_0_1_n_n none x0 x1 (constant (F := Ideal) S640x128 .f32 0x00000000#32) (ix2 r k)
      = ∑ q : Fin 10240, x0 (ix2 r q) * x1 (ix2 q k) := by
  rw [Ideal.matmul_constant_zero_apply, ← Equiv.sum_comp (ValueIdx.contrEquiv1 dot_S640x10240_S10240x128_S640x128_1_0_0_1_n_n 10240 rfl rfl).symm]
  refine Finset.sum_congr rfl fun q _ => ?_
  have hq := ValueIdx.contrEquiv1_symm_val dot_S640x10240_S10240x128_S640x128_1_0_0_1_n_n 10240 rfl rfl q
  have el : dot_S640x10240_S10240x128_S640x128_1_0_0_1_n_n.lhsIdx (ix2 r k) ((ValueIdx.contrEquiv1 dot_S640x10240_S10240x128_S640x128_1_0_0_1_n_n 10240 rfl rfl).symm q) = ix2 r q := funext fun a => Fin.ext (by
    match a with
    | ⟨0, _⟩ => exact lhs_R1_0 _ _
    | ⟨1, _⟩ => exact (lhs_R1_1 _ _).trans hq)
  have er : dot_S640x10240_S10240x128_S640x128_1_0_0_1_n_n.rhsIdx (ix2 r k) ((ValueIdx.contrEquiv1 dot_S640x10240_S10240x128_S640x128_1_0_0_1_n_n 10240 rfl rfl).symm q) = ix2 q k := funext fun a => Fin.ext (by
    match a with
    | ⟨0, _⟩ => exact (rhs_R1_0 _ _).trans hq
    | ⟨1, _⟩ => exact rhs_R1_1 _ _)
  rw [el, er]

/-- The body's value at row r, column k of its block: the row of the A-block times the column of hW, plus the
    bias at k, clipped below at zero (the change of float format is the identity on ideal values). -/
theorem pay_R1_apply (x0 : FVec Ideal S640x10240 .bf16) (x1 : FVec Ideal S10240x128 .bf16) (x2 : FVec Ideal S1x128 .f32)
    (r : Fin 640) (k : Fin 128) :
    (k1_pay1 (F := Ideal) x0 x1 x2) (ix2 r k)
      = max (∑ q : Fin 10240, x0 (ix2 r q) * x1 (ix2 q k) + x2 (ix2 (0 : Fin 1) k)) 0 := by
  unfold k1_pay1
  simp only [shapeCast_self]
  rw [truncf_apply, maximumf_apply, addf_apply, broadcast_apply]
  show max (FloatOps.matmul dot_S640x10240_S10240x128_S640x128_1_0_0_1_n_n none x0 x1 (constant (F := Ideal) S640x128 .f32 0x00000000#32) (ix2 r k) + _) _ = _
  rw [matmul_R1_apply, broadcastTo_1b_ab_apply]
  show max _ (Ideal.ofBits .f32 0x00000000#32) = _
  rw [Ideal.ofBits_zero_f32]

/-! ## The whole-array function, and the arrays as the region finds them -/

variable (V : (c : Dev nD) → (b : Ref sig .tc) → Buf (Elt Ideal) ((c : Thread nD τ).loc b))

/-- The [10240, 10240] matrix A as the region finds it. -/
abbrev Aarr_R1 (c : Dev nD) : FVec Ideal S10240x10240 .bf16 := V c main_v44
/-- The [10240, 128] matrix hW as the region finds it. -/
abbrev Warr_R1 (c : Dev nD) : FVec Ideal S10240x128 .bf16 := V c main_v53
/-- The [1, 128] bias row as the region finds it. -/
abbrev Barr_R1 (c : Dev nD) : FVec Ideal S1x128 .f32 := V c main_v47
/-- The [10240, 128] output array after the region's last grid point. -/
abbrev Oarr_R1 (c : Dev nD) : FVec Ideal S10240x128 .bf16 := (dat1 (F := Ideal) V c).arrAt 3 cfg1.N

/-- max (A · hW + bias, 0), entry by entry: entry (p, k) is row p of A times column k of hW, plus the bias at k,
    clipped below at zero. -/
def G_R1 (A : FVec Ideal S10240x10240 .bf16) (W : FVec Ideal S10240x128 .bf16) (B : FVec Ideal S1x128 .f32) :
    FVec Ideal S10240x128 .bf16 :=
  fun i => max (∑ q : Fin 10240, A (ix2 (n0 := 10240) (i 0) q) * W (ix2 (n1 := 128) q (i 1)) + B (ix2 (n1 := 128) (0 : Fin 1) (i 1))) 0

theorem hz_R1 : (![0, 0] : Fin 2 → Nat) = fun _ => 0 := funext fun a => by fin_cases a <;> rfl

/-- Row r, column k of a block's body value is entry (p, k) of the whole-array function as soon as row r of the
    A-block is row p of A and the other two blocks are the whole hW and bias. -/
theorem point_R1 (x0 : FVec Ideal S640x10240 .bf16) (x1 : FVec Ideal S10240x128 .bf16) (x2 : FVec Ideal S1x128 .f32)
    (A : FVec Ideal S10240x10240 .bf16) (W : FVec Ideal S10240x128 .bf16) (B : FVec Ideal S1x128 .f32)
    (j : S640x128.Idx) (i : S10240x128.Idx) (hi1 : (i 1).val = (j 1).val)
    (h0 : ∀ (x : S640x10240.Idx) (y : S10240x10240.Idx), (x 0).val = (j 0).val → (y 0).val = (i 0).val →
      (y 1).val = (x 1).val → x0 x = A y)
    (h1 : x1 = W) (h2 : x2 = B) :
    k1_pay1 (F := Ideal) x0 x1 x2 j = G_R1 A W B i := by
  obtain ⟨r, k, rfl⟩ : ∃ (r : Fin 640) (k : Fin 128), j = ix2 r k := ⟨j 0, j 1, eq_ix2 j⟩
  obtain ⟨p, k', rfl⟩ : ∃ (p : Fin 10240) (k' : Fin 128), i = ix2 p k' := ⟨i 0, i 1, eq_ix2 i⟩
  obtain rfl : k' = k := Fin.ext hi1
  subst h1 h2
  rw [pay_R1_apply]
  show _ = max (∑ q : Fin 10240, A (ix2 p q) * x1 (ix2 q k') + x2 (ix2 (0 : Fin 1) k')) 0
  have e : ∀ q : Fin 10240, x0 (ix2 r q) = A (ix2 p q) := fun q => h0 _ _ rfl rfl rfl
  simp only [e]

/-! ## The blocks of a grid point -/

/-- The block indices, decided over the 16 grid points: the A-block and the output block of point t are the t-th
    row blocks; hW and the bias are fetched whole. -/
theorem idx_R1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point t's A-block is rows 640 t … 640 t + 639 of A. -/
theorem blkA_R1 (c : Dev nD) (t : Fin cfg1.N) (x : S640x10240.Idx) (y : S10240x10240.Idx)
    (h0 : (y 0).val = t.val * 640 + (x 0).val) (h1 : (y 1).val = (x 1).val) :
    (iblk1 V c 0 t : FVec Ideal S640x10240 .bf16) x = Aarr_R1 V c y := by
  obtain ⟨e0, e1, -⟩ := idx_R1 t
  unfold iblk1
  rw [View.read_apply]
  show V c main_v44 _ = V c main_v44 _
  congr 1
  funext a
  apply Fin.ext
  match a with
  | ⟨0, _⟩ => show win1_0.index t (0 : Fin 2) * 640 + 1 * (x 0).val = (y 0).val; rw [e0, h0]; omega
  | ⟨1, _⟩ => show win1_0.index t (1 : Fin 2) * 10240 + 1 * (x 1).val = (y 1).val; rw [e1, h1]; omega

/-- Every point's hW-block is the whole of hW. -/
theorem blkW_R1 (c : Dev nD) (t : Fin cfg1.N) : (iblk1 V c 1 t : FVec Ideal S10240x128 .bf16) = Warr_R1 V c := by
  obtain ⟨-, -, e2, e3, -⟩ := idx_R1 t
  funext x
  unfold iblk1
  rw [View.read_apply]
  show V c main_v53 _ = V c main_v53 _
  congr 1
  funext a
  apply Fin.ext
  match a with
  | ⟨0, _⟩ => show win1_1.index t (0 : Fin 2) * 10240 + 1 * (x 0).val = (x 0).val; rw [e2]; omega
  | ⟨1, _⟩ => show win1_1.index t (1 : Fin 2) * 128 + 1 * (x 1).val = (x 1).val; rw [e3]; omega

/-- Every point's bias block is the whole bias row. -/
theorem blkB_R1 (c : Dev nD) (t : Fin cfg1.N) : (iblk1 V c 2 t : FVec Ideal S1x128 .f32) = Barr_R1 V c := by
  obtain ⟨-, -, -, -, e4, e5, -⟩ := idx_R1 t
  funext x
  unfold iblk1
  rw [View.read_apply]
  show V c main_v47 _ = V c main_v47 _
  congr 1
  funext a
  apply Fin.ext
  match a with
  | ⟨0, _⟩ => show win1_2.index t (0 : Fin 2) * 1 + 1 * (x 0).val = (x 0).val; rw [e4]; omega
  | ⟨1, _⟩ => show win1_2.index t (1 : Fin 2) * 128 + 1 * (x 1).val = (x 1).val; rw [e5]; omega

/-- What point t writes back is its row block of the whole-array function of A, hW and the bias. -/
theorem flushed_R1 (c : Dev nD) (t : Fin cfg1.N) :
    (dat1 V c).flushed 3 t
      = ((cfg1.win 3).blk t).view.read (Elt Ideal) (G_R1 (Aarr_R1 V c) (Warr_R1 V c) (Barr_R1 V c)) := by
  show (cfg1.win 3).cut (grid1.coords t) ((dat1 V c).after 3 t) = _
  rw [after1_3]
  unfold out1_3
  rw [View.canon_unit_zero hz_R1]
  simp only [View.ld_unit_zero (S := S640x10240) hz_R1, View.ld_unit_zero (S := S10240x128) hz_R1, View.ld_unit_zero (S := S1x128) hz_R1]
  obtain ⟨-, -, -, -, -, -, e6, e7⟩ := idx_R1 t
  funext j
  show k1_pay1 (F := Ideal) (iblk1 V c 0 t) (iblk1 V c 1 t) (iblk1 V c 2 t) j
    = G_R1 (Aarr_R1 V c) (Warr_R1 V c) (Barr_R1 V c) (((cfg1.win 3).blk t).view.emb j)
  have hj0 : ((((cfg1.win 3).blk t).view.emb j) 0).val = t.val * 640 + (j 0).val := by
    show win1_3.index t (0 : Fin 2) * 640 + 1 * (j 0).val = _; rw [e6]; omega
  have hj1 : ((((cfg1.win 3).blk t).view.emb j) 1).val = (j 1).val := by
    show win1_3.index t (1 : Fin 2) * 128 + 1 * (j 1).val = _; rw [e7]; omega
  refine point_R1 (iblk1 V c 0 t) (iblk1 V c 1 t) (iblk1 V c 2 t) (Aarr_R1 V c) (Warr_R1 V c) (Barr_R1 V c) j
    (((cfg1.win 3).blk t).view.emb j) hj1 (fun x y hx hy hxy => ?_) (blkW_R1 V c t) (blkB_R1 V c t)
  exact blkA_R1 V c t x y (by rw [hy, hj0, hx]) hxy

/-! ## The blocks cover the array -/

/-- An index of the output array is in point t's block iff each coordinate is in the block's range on its axis. -/
theorem mem_blk_R1 (t : Fin cfg1.N) (i : S10240x128.Idx) :
    i ∈ ((cfg1.win 3).blk t).view.set ↔ ∀ a : Fin 2, win1_3.index t a * S640x128.size a ≤ (i a).val ∧ (i a).val < win1_3.index t a * S640x128.size a + S640x128.size a := by
  show i ∈ ((View.whole main_v54).slice (win1_3.rect t)).set ↔ _
  rw [View.set_slice_whole, Rect.mem_set_unit]
  exact Iff.rfl

/-- Row p of the output lies in the block of point p / 640, and every point writes its block back. -/
theorem cover_R1 (i : S10240x128.Idx) :
    ∃ t : Fin cfg1.N, (cfg1.win 3).flush t = true ∧ i ∈ ((cfg1.win 3).blk t).view.set := by
  have hi0 : (i 0).val < 10240 := (i 0).isLt
  have hi1 : (i 1).val < 128 := (i 1).isLt
  have hN : grid1.N = 16 := N_1
  obtain ⟨t, ht⟩ : ∃ t : Fin cfg1.N, t.val = (i 0).val / 640 :=
    ⟨⟨(i 0).val / 640, by show _ < grid1.N; rw [hN]; omega⟩, rfl⟩
  obtain ⟨-, -, -, -, -, -, e6, e7⟩ := idx_R1 t
  refine ⟨t, flush1_3 t, ?_⟩
  rw [mem_blk_R1]
  intro a
  match a with
  | ⟨0, _⟩ => show win1_3.index t (0 : Fin 2) * 640 ≤ (i 0).val ∧ (i 0).val < win1_3.index t (0 : Fin 2) * 640 + 640; rw [e6, ht]; omega
  | ⟨1, _⟩ => show win1_3.index t (1 : Fin 2) * 128 ≤ (i 1).val ∧ (i 1).val < win1_3.index t (1 : Fin 2) * 128 + 128; rw [e7]; omega

/-! ## The region's value -/

/-- After the region the output array is max (A · hW + bias, 0). -/
theorem final_R1 (c : Dev nD) :
    Oarr_R1 V c = G_R1 (Aarr_R1 V c) (Warr_R1 V c) (Barr_R1 V c) :=
  (dat1 V c).arrAt_eq_of_cover 3 (G_R1 (Aarr_R1 V c) (Warr_R1 V c) (Barr_R1 V c)) (fun t _ => flushed_R1 V c t) cover_R1

/-- Entry (p, k) of the region's output: row p of A times column k of hW, plus the bias at k, clipped below at zero. -/
theorem region1_value (c : Dev nD) (p : Fin 10240) (k : Fin 128) :
    Oarr_R1 V c (ix2 p k)
      = max (∑ q : Fin 10240, Aarr_R1 V c (ix2 p q) * Warr_R1 V c (ix2 q k) + Barr_R1 V c (ix2 (0 : Fin 1) k)) 0 :=
  congrFun (final_R1 V c) (ix2 p k)

end Cert.KernelIdeal.RegionValue

end
-- ==== Proof.KerOps.lean ====
/-
  Single host operations of the program read at an index, at the ideal values.

  The [10240, 128] by [128, 128] product at (q, c) is the sum over the contracted coordinate of the left operand
  at (q, c') times the right operand at (c', c): the contraction has one axis, of extent 128, and the operand indices
  at a result index and a contraction index are read off the dimension numbers axis by axis.

  Padding a [10000, 128] array with 240 rows below reads the array on the first 10000 rows and the padding value on the
  others; adding a leading unit axis to a vector keeps its entries; the slice of the first 10000 rows of a
  [10240, 128] array reads the array at the same row; the integer 0 converts to the real number 0.
-/
import proofs.«430124_j2216203125270_2_alg».proof.KernelIdeal
import proofs.«430124_j2216203125270_2_alg».proof.Proof.Common
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostValue

open Cert.KernelIdeal Idealize.ShloMosaic Idealize.ShloMosaic.ValueIdx Cert.GC
open Cert.KernelIdeal.Facts₀ Cert.KernelIdeal.Facts

variable [Cert.KernelIdeal.Facts]

/-! ## The matrix product -/

/-- The left operand's row is the result's row. -/
theorem dot_lhs_0 (i : S10240x128.Idx) (q : dot_S10240x128_S128x128_S10240x128_1_0_0_1_n_n.contr.Idx) :
    (dot_S10240x128_S128x128_S10240x128_1_0_0_1_n_n.lhsIdx i q 0).val = (i 0).val := by
  unfold DotDims.lhsIdx
  rw [dif_neg (show ¬(0 : Fin S10240x128.rank) ∈ dot_S10240x128_S128x128_S10240x128_1_0_0_1_n_n.lhsBatch from List.not_mem_nil), dif_pos (show (0 : Fin S10240x128.rank) ∈ dot_S10240x128_S128x128_S10240x128_1_0_0_1_n_n.lhsNonContracting from List.mem_singleton.mpr rfl)]
  rfl

/-- The left operand's column is the contracted coordinate. -/
theorem dot_lhs_1 (i : S10240x128.Idx) (q : dot_S10240x128_S128x128_S10240x128_1_0_0_1_n_n.contr.Idx) :
    (dot_S10240x128_S128x128_S10240x128_1_0_0_1_n_n.lhsIdx i q 1).val = (q ⟨0, Nat.one_pos⟩).val :=
  dot_S10240x128_S128x128_S10240x128_1_0_0_1_n_n.lhsIdx_val_of_single rfl i q

/-- The right operand's row is the contracted coordinate. -/
theorem dot_rhs_0 (i : S10240x128.Idx) (q : dot_S10240x128_S128x128_S10240x128_1_0_0_1_n_n.contr.Idx) :
    (dot_S10240x128_S128x128_S10240x128_1_0_0_1_n_n.rhsIdx i q 0).val = (q ⟨0, Nat.one_pos⟩).val :=
  dot_S10240x128_S128x128_S10240x128_1_0_0_1_n_n.rhsIdx_val_of_single rfl i q

/-- The right operand's column is the result's column. -/
theorem dot_rhs_1 (i : S10240x128.Idx) (q : dot_S10240x128_S128x128_S10240x128_1_0_0_1_n_n.contr.Idx) :
    (dot_S10240x128_S128x128_S10240x128_1_0_0_1_n_n.rhsIdx i q 1).val = (i 1).val := by
  unfold DotDims.rhsIdx
  rw [dif_neg (show ¬(1 : Fin S128x128.rank) ∈ dot_S10240x128_S128x128_S10240x128_1_0_0_1_n_n.rhsBatch from List.not_mem_nil), dif_pos (show (1 : Fin S128x128.rank) ∈ dot_S10240x128_S128x128_S10240x128_1_0_0_1_n_n.rhsNonContracting from List.mem_singleton.mpr rfl)]
  rfl

/-- THE PRODUCT READ AT (q, c): the sum over the contracted coordinate. -/
theorem dot_apply (l : FVec Ideal S10240x128 .f32) (r : FVec Ideal S128x128 .f32) (q : Fin 10240) (c : Fin 128) :
    Host.dotGeneral (F := Ideal) dot_S10240x128_S128x128_S10240x128_1_0_0_1_n_n none l r (ix2 q c) = ∑ c' : Fin 128, l (ix2 q c') * r (ix2 c' c) := by
  simp only [Host.dotGeneral]
  rw [Ideal.dotGeneral_apply, ← Equiv.sum_comp (ValueIdx.contrEquiv1 dot_S10240x128_S128x128_S10240x128_1_0_0_1_n_n 128 rfl rfl).symm]
  refine Finset.sum_congr rfl fun k _ => ?_
  have hk := ValueIdx.contrEquiv1_symm_val dot_S10240x128_S128x128_S10240x128_1_0_0_1_n_n 128 rfl rfl k
  have el : dot_S10240x128_S128x128_S10240x128_1_0_0_1_n_n.lhsIdx (ix2 q c) ((ValueIdx.contrEquiv1 dot_S10240x128_S128x128_S10240x128_1_0_0_1_n_n 128 rfl rfl).symm k) = ix2 q k := funext fun a => Fin.ext (by
    match a with
    | ⟨0, _⟩ => exact dot_lhs_0 _ _
    | ⟨1, _⟩ => exact (dot_lhs_1 _ _).trans hk)
  have er : dot_S10240x128_S128x128_S10240x128_1_0_0_1_n_n.rhsIdx (ix2 q c) ((ValueIdx.contrEquiv1 dot_S10240x128_S128x128_S10240x128_1_0_0_1_n_n 128 rfl rfl).symm k) = ix2 k c := funext fun a => Fin.ext (by
    match a with
    | ⟨0, _⟩ => exact (dot_rhs_0 _ _).trans hk
    | ⟨1, _⟩ => exact dot_rhs_1 _ _)
  rw [el, er]

/-! ## The padding -/

/-- THE PADDED ARRAY READ AT (p, c): the array on the first 10000 rows, the padding value below them. -/
theorem pad_apply (x : FVec Ideal S10000x128 .f32) (v : FVec Ideal S_ .f32) (p : Fin 10240) (c : Fin 128) :
    pad S10240x128 ![0, 0] ![240, 0] ![0, 0] x v pads_S10000x128_S10240x128_02400_000 h_S_ (ix2 p c)
      = if h : p.val < 10000 then x (ix2 ⟨p.val, h⟩ c) else v ix0 := by
  unfold pad
  by_cases hp : p.val < 10000
  · rw [dif_pos hp, dif_pos]
    · refine congrArg x (funext fun a => Fin.ext ?_)
      match a with
      | ⟨0, _⟩ => show (p.val - 0) / (0 + 1) = p.val; omega
      | ⟨1, _⟩ => show (c.val - 0) / (0 + 1) = c.val; omega
    · intro a
      match a with
      | ⟨0, _⟩ =>
        refine ⟨Nat.zero_le _, Nat.mod_one _, ?_⟩
        show (p.val - 0) / (0 + 1) < 10000
        omega
      | ⟨1, _⟩ =>
        refine ⟨Nat.zero_le _, Nat.mod_one _, ?_⟩
        show (c.val - 0) / (0 + 1) < 128
        have := c.isLt
        omega
  · rw [dif_neg hp, dif_neg]
    · exact congrArg v (eq_ix0 _)
    · intro hin
      have h0 := (hin 0).2.2
      change (p.val - 0) / (0 + 1) < 10000 at h0
      omega

/-- With the padding value 0 the padded array is the matrix with zero rows appended. -/
theorem pad_eq_padRows (x : FVec Ideal S10000x128 .f32) (v : FVec Ideal S_ .f32) (hv : v ix0 = 0)
    (p : Fin 10240) (c : Fin 128) :
    pad S10240x128 ![0, 0] ![240, 0] ![0, 0] x v pads_S10000x128_S10240x128_02400_000 h_S_ (ix2 p c)
      = padRows (mat x) p c := by
  rw [pad_apply, hv]
  rfl

/-! ## The leading unit axis, the slice, the converted zero -/

/-- A [128] vector given a leading unit axis keeps its entries. -/
theorem reshape_row (b : FVec Ideal S128 .f32) (k : Fin 128) :
    shapeCast S1x128 b shapeCasts_S128_S1x128 (ix2 (0 : Fin 1) k) = b (ix1 k) :=
  shapeCast_a_1a_apply b shapeCasts_S128_S1x128 0 k

/-- The first 10000 rows of a [10240, 128] array, read at (i, k), are the array at the same row. -/
theorem slice_apply (y : FVec Ideal S10240x128 .bf16) (i : Fin 10000) (k : Fin 128) :
    extractStridedSlice S10000x128 ![0, 0] y slices_S10240x128_S10000x128_0_0 (ix2 i k) = y (ix2 (emb i) k) :=
  extractStridedSlice_apply ![0, 0] y slices_S10240x128_S10000x128_0_0 (ix2 i k) (ix2 (emb i) k) (fun a =>
    match a with
    | ⟨0, _⟩ => by show (emb i).val = 0 + i.val; rw [emb_val, Nat.zero_add]
    | ⟨1, _⟩ => by show k.val = 0 + k.val; rw [Nat.zero_add])

/-- The integer 0 converted to a float is the real number 0. -/
theorem sitofp_zero : (sitofp .f32 (constantI S_ 32 0#32) : FVec Ideal S_ .f32) ix0 = 0 := by
  show (((0#32 : BitVec 32).toInt : ℝ) : EReal) = 0
  have e : (0#32 : BitVec 32).toInt = 0 := by decide
  rw [e, Int.cast_zero, EReal.coe_zero]

end Cert.KernelIdeal.HostValue

end
-- ==== Proof.LibGatherPair.lean ====
/-
  jnp's `x[rows, cols]` on an `[R, C]` table: a gather through an `[n, 2]` table of start indices, both operand axes
  collapsed and both named by the start index map. Read at position `p` it is the table at the two start words of
  row `p`, each read as a signed integer and clamped into its axis. The start-index table is two `[n, 1]` columns
  side by side: column 0 of the pair is the first column, column 1 the second. NumPy's rule for a negative index
  (add the extent when the word is negative) followed by the clamp is the identity on a word in range.
-/
import Idealize.ShloMosaic.Lib.Pipeline.Value
import Idealize.ShloMosaic.Lib.ValueIdx
import Idealize.ShloMosaic.Lib.StableHlo.Predicate

noncomputable section

namespace Cert.GatherPair

open Idealize.ShloMosaic Idealize.ShloMosaic.ValueIdx

variable {α : Type}

/-! ## Two columns side by side -/

/-- Column 0 of two `[n, 1]` columns joined along axis 1 is the first column. -/
theorem concat_col0 {n : ℕ} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (0 : Fin 2)) = a (ix2 p (0 : Fin 1)) :=
  concatenate_pair_apply_left 1 a b h (ix2 p (0 : Fin 2)) rfl (ix2 p (0 : Fin 1)) fun c => by
    match c with
    | ⟨0, _⟩ => rfl
    | ⟨1, _⟩ => rfl

/-- Column 1 of the pair is the second column. -/
theorem concat_col1 {n : ℕ} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (1 : Fin 2)) = b (ix2 p (0 : Fin 1)) :=
  concatenate_pair_apply_right 1 a b h (ix2 p (1 : Fin 2)) rfl rfl (ix2 p (0 : Fin 1))
    (fun c hc => by
      match c with
      | ⟨0, _⟩ => rfl
      | ⟨1, _⟩ => exact absurd rfl hc)
    rfl

/-! ## The gather -/

/-- The dimension numbers of `x[rows, cols]`: no offset axis, both operand axes collapsed, the start index's two
    components naming axes 0 and 1, the index vector along axis 1 of the start-index table, unit slices. -/
abbrev pairDims (R C n : ℕ)
    (wf : GatherDims.WF ⟨2, ![R, C]⟩ ⟨2, ![n, 2]⟩ ⟨1, ![n]⟩ [] [0, 1] [] [0, 1] [] 1 ![1, 1]) :
    GatherDims ⟨2, ![R, C]⟩ ⟨2, ![n, 2]⟩ ⟨1, ![n]⟩ where
  offsetDims := []
  collapsedSliceDims := [0, 1]
  operandBatchingDims := []
  startIndicesBatchingDims := []
  startIndexMap := [0, 1]
  indexVectorDim := 1
  sliceSizes := ![1, 1]
  wf := wf

/-- THE GATHER READ AT `p`: the table at row `idx[p, 0]` and column `idx[p, 1]`, each read signed and clamped into
    its axis. -/
theorem gather_pair_apply {R C n w : ℕ} (hR : 0 < R) (hC : 0 < C)
    (wf : GatherDims.WF ⟨2, ![R, C]⟩ ⟨2, ![n, 2]⟩ ⟨1, ![n]⟩ [] [0, 1] [] [0, 1] [] 1 ![1, 1])
    (x : (⟨2, ![R, C]⟩ : Shape).Idx → α) (idx : IVec ⟨2, ![n, 2]⟩ w) (p : Fin n) :
    Host.gather (pairDims R C n wf) x idx (ix1 p)
      = x (ix2 ⟨min (idx (ix2 p (0 : Fin 2))).toInt.toNat (R - 1), by omega⟩
            ⟨min (idx (ix2 p (1 : Fin 2))).toInt.toNat (C - 1), by omega⟩) := by
  unfold Host.gather
  congr 1
  funext a
  refine Fin.ext ?_
  have hsi : ∀ (k : Fin 2) (hk : k.val < (pairDims R C n wf).startIndexMap.length),
      (pairDims R C n wf).siIdx (ix1 p) ⟨k.val, hk⟩ = ix2 p k := by
    intro k hk
    funext b; refine Fin.ext ?_
    match b with
    | ⟨0, _⟩ => rfl
    | ⟨1, _⟩ => rfl
  match a with
  | ⟨0, _⟩ =>
    show (pairDims R C n wf).start (ix1 p) idx 0 + (pairDims R C n wf).batchCoord (ix1 p) 0
      + (pairDims R C n wf).offCoord (ix1 p) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (0 : Fin 2) ∈ (pairDims R C n wf).startIndexMap by simp)]
    rw [show (⟨List.idxOf (0 : Fin 2) (pairDims R C n wf).startIndexMap, List.idxOf_lt_length_iff.2 (by simp)⟩ :
        Fin (pairDims R C n wf).startIndexMap.length) = ⟨(0 : Fin 2).val, by simp⟩ from
        Fin.ext (by show List.idxOf (0 : Fin 2) [(0 : Fin 2), 1] = 0; decide),
      hsi 0 (by simp)]
    rfl
  | ⟨1, _⟩ =>
    show (pairDims R C n wf).start (ix1 p) idx 1 + (pairDims R C n wf).batchCoord (ix1 p) 1
      + (pairDims R C n wf).offCoord (ix1 p) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (1 : Fin 2) ∈ (pairDims R C n wf).startIndexMap by simp)]
    rw [show (⟨List.idxOf (1 : Fin 2) (pairDims R C n wf).startIndexMap, List.idxOf_lt_length_iff.2 (by simp)⟩ :
        Fin (pairDims R C n wf).startIndexMap.length) = ⟨(1 : Fin 2).val, by simp⟩ from
        Fin.ext (by show List.idxOf (1 : Fin 2) [(0 : Fin 2), 1] = 1; decide),
      hsi 1 (by simp)]
    rfl

/-! ## An index in range through NumPy's rule and the clamp -/

/-- A word that is the number `k < N` (with `N` below `2 ^ 31`): adding `N` when it is negative changes nothing, and
    read signed and clamped into `[0, N - 1]` it is `k`. -/
theorem wrap_clamp (b : BitVec 32) (k N : ℕ) (hb : b = BitVec.ofNat 32 k) (hk : k < N) (hN : N < 2 ^ 31) :
    min (Scalar.select (IntOp.cmpi .slt b 0#32) (IntOp.addi b (BitVec.ofNat 32 N)) b).toInt.toNat (N - 1) = k := by
  subst hb
  have hk31 : k < 2 ^ 31 := lt_trans hk hN
  have hnn : ¬IntOp.cmpi .slt (BitVec.ofNat 32 k) 0#32 = 1#1 := by
    intro h
    have := (StableHlo.Predicate.slt_iff_toNat (a := BitVec.ofNat 32 k) (b := 0#32)
      (by rw [BitVec.toNat_ofNat]; omega) (by decide)).1 h
    simp at this
  rw [eq_zero_of_ne_one hnn, select_zero, StableHlo.Predicate.toInt_ofNat_small k hk31, Int.toNat_natCast]
  omega

end Cert.GatherPair

end
-- ==== Proof.KerEdgeVal.lean ====
/-
  The values the kernel's host code computes before it builds the dense adjacency matrix, as functions of the three
  edge arrays (source words, destination words, edge weights), each read at one position.

  An index word goes through NumPy's rule for negative indices (add the extent when the word is negative); on a word
  that already names a node this changes nothing. The normalisation vector of an index vector is the inverse square
  root of its degree vector raised to at least one. The value of edge e is
      (weight e * normalisation of the sources at the source of e) * normalisation of the destinations at the
      destination of e,
  and the table of scatter positions holds, in row e, the destination word and the source word of e.
-/
import proofs.«430124_j2216203125270_2_alg».proof.Proof.Gen.KernelIdeal
import proofs.«430124_j2216203125270_2_alg».proof.Proof.Common
import proofs.«430124_j2216203125270_2_alg».proof.Proof.LibGatherPair
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.HostValue

open Idealize.ShloMosaic Idealize.ShloMosaic.ValueIdx
open Cert.KernelIdeal Cert.KernelIdeal.Gen Cert.GC

/-! ## The arrays -/

/-- A scalar word spread over the edges. -/
def splatI (T : BitVec 32) : IVec S640000 32 := broadcastInDim S640000 ![] bcast_S_S640000 (constantI S_ 32 T)

/-- NumPy's rule for a negative index with extent T, on every word of an index vector. -/
def wrapIdx (T : BitVec 32) (v : IVec S640000 32) : IVec S640000 32 :=
  select (cmpi .slt v (splatI 0#32)) (addi v (splatI T)) v

/-- An index vector as a one-column table. -/
def col (v : IVec S640000 32) : IVec S640000x1 32 := broadcastInDim S640000x1 ![0] bcast_S640000_S640000x1_0 v

/-- The normalisation vector of an index vector: ones added into zeros at the vector's words, raised to at least
    one, inverse square root. -/
def normVec (v : IVec S640000 32) : FVec Ideal S10000 .f32 :=
  Host.rsqrt (maximumf
    (Host.scatterAdd scatter_S10000_S640000x1_S640000_n_0_0_1
      (broadcastInDim S10000 ![] bcast_S_S10000 (constant S_ .f32 0x00000000#32))
      (col v)
      (broadcastInDim S640000 ![] bcast_S_S640000 (constant S_ .f32 0x3F800000#32)))
    (broadcastInDim S10000 ![] bcast_S_S10000 (constant S_ .f32 0x3F800000#32)))

/-- The value of every edge. -/
def edgeVal (src dst : IVec S640000 32) (ew : FVec Ideal S640000 .f32) : FVec Ideal S640000 .f32 :=
  mulf
    (mulf ew (Host.gather gather_S10000_S640000x1_S640000_n_0_n_n_0_1_1 (normVec src) (col (wrapIdx 10000#32 src))))
    (Host.gather gather_S10000_S640000x1_S640000_n_0_n_n_0_1_1 (normVec dst) (col (wrapIdx 10000#32 dst)))

/-- The table of scatter positions: row e holds the destination word and the source word of edge e. -/
def pairTable (src dst : IVec S640000 32) : IVec S640000x2 32 :=
  concatenate S640000x2 1 [⟨S640000x1, col (wrapIdx 10240#32 dst)⟩, ⟨S640000x1, col (wrapIdx 10240#32 src)⟩]
    concatenates_S640000x1_S640000x1_S640000x2_d1

/-- The zero matrix the edge values are added into. -/
def zeroMat : FVec Ideal S10240x10240 .f32 :=
  broadcastInDim S10240x10240 ![] bcast_S_S10240x10240 (constant S_ .f32 0x00000000#32)

/-! ## Read at a position -/

/-- A scalar spread over a shape reads the scalar everywhere. -/
theorem splat_apply {α : Type} {t : Shape} (h : S_.BroadcastsInDim t (![] : Fin 0 → Fin t.rank)) (x : S_.Idx → α) (j : t.Idx) :
    broadcastInDim t ![] h x j = x ix0 :=
  broadcastInDim_apply _ h x j ix0 fun a => a.elim0

theorem splatI_apply (T : BitVec 32) (i : S640000.Idx) : splatI T i = T := by
  unfold splatI
  rw [splat_apply]
  rfl

/-- The rule at edge e. -/
theorem wrapIdx_apply (T : BitVec 32) (v : IVec S640000 32) (e : Fin 640000) :
    wrapIdx T v (ix1 e)
      = Scalar.select (IntOp.cmpi .slt (v (ix1 e)) 0#32) (IntOp.addi (v (ix1 e)) T) (v (ix1 e)) := by
  show Scalar.select (IntOp.cmpi .slt (v (ix1 e)) (splatI 0#32 (ix1 e))) (IntOp.addi (v (ix1 e)) (splatI T (ix1 e))) (v (ix1 e)) = _
  rw [splatI_apply, splatI_apply]

/-- Row e of the one-column table is word e. -/
theorem col_apply (v : IVec S640000 32) (e : Fin 640000) : col v (ix2 e (0 : Fin 1)) = v (ix1 e) := by
  unfold col
  refine broadcastInDim_apply _ _ v _ (ix1 e) fun a => ?_
  match a with
  | ⟨0, _⟩ =>
    show e.val = if (640000 : ℕ) = 1 then 0 else e.val
    rw [if_neg (by decide)]

/-- The zero matrix is zero. -/
theorem zeroMat_apply (j : S10240x10240.Idx) : zeroMat j = 0 := by
  unfold zeroMat
  rw [splat_apply, constant_apply, Ideal.ofBits_zero_f32]

/-- The normalisation vector at a node is the node's normalisation factor. -/
theorem normVec_eq (v : IVec S640000 32) (i : Fin 10000) : normVec v (ix1 i) = nrm v i := by
  unfold normVec
  exact normVec_apply scatter_S10000_S640000x1_S640000_n_0_0_1_wf v _ _ _ (col v)
    (fun j => by rw [splat_apply, constant_apply, Ideal.ofBits_zero_f32])
    (fun j => by rw [splat_apply, constant_apply, Ideal.ofBits_one_f32])
    (fun j => by rw [splat_apply, constant_apply, Ideal.ofBits_one_f32])
    (fun e => col_apply v e) i

/-- The normalisation vector gathered along the edges reads, at edge e, the factor of the node the edge's word
    names. -/
theorem gather_normVec (v : IVec S640000 32) (h : InRange v) (e : Fin 640000) :
    Host.gather gather_S10000_S640000x1_S640000_n_0_n_n_0_1_1 (normVec v) (col (wrapIdx 10000#32 v)) (ix1 e)
      = nrm v (nodeOf v h e) := by
  have hg := ScatterRead.vecGather_apply (n := 10000) (M := 640000) (by decide)
    gather_S10000_S640000x1_S640000_n_0_n_n_0_1_1_wf (normVec v) (col (wrapIdx 10000#32 v)) e
  refine Eq.trans hg ?_
  rw [← normVec_eq]
  refine congrArg (normVec v) (congrArg ix1 (Fin.ext ?_))
  show min ((col (wrapIdx 10000#32 v) (ix2 e 0)).toInt.toNat) (10000 - 1) = (v (ix1 e)).toNat
  rw [col_apply, wrapIdx_apply]
  exact ScatterRead.wrap_clamp (v (ix1 e)) 10000#32 10000 (h e) (by decide)

/-- THE VALUE OF EDGE e. -/
theorem edgeVal_apply (src dst : IVec S640000 32) (ew : FVec Ideal S640000 .f32) (hs : InRange src) (hd : InRange dst)
    (e : Fin 640000) :
    edgeVal src dst ew (ix1 e) = vec ew e * nrm src (nodeOf src hs e) * nrm dst (nodeOf dst hd e) := by
  unfold edgeVal
  rw [mulf_apply, mulf_apply, gather_normVec src hs e, gather_normVec dst hd e]
  rfl

/-- Row e of the table, read signed: the destination node, then the source node. -/
theorem pairTable_dst (src dst : IVec S640000 32) (hd : InRange dst) (e : Fin 640000) :
    (pairTable src dst (ix2 e (0 : Fin 2))).toInt = ((dst (ix1 e)).toNat : ℤ) := by
  unfold pairTable
  rw [Cert.GatherPair.concat_col0, col_apply, wrapIdx_apply]
  exact ScatterRead.wrap_toInt (dst (ix1 e)) 10240#32 10240 (lt_trans (hd e) (by decide)) (by decide)

theorem pairTable_src (src dst : IVec S640000 32) (hs : InRange src) (e : Fin 640000) :
    (pairTable src dst (ix2 e (1 : Fin 2))).toInt = ((src (ix1 e)).toNat : ℤ) := by
  unfold pairTable
  rw [Cert.GatherPair.concat_col1, col_apply, wrapIdx_apply]
  exact ScatterRead.wrap_toInt (src (ix1 e)) 10240#32 10240 (lt_trans (hs e) (by decide)) (by decide)

end Cert.KernelIdeal.HostValue

end
-- ==== Proof.KerA.lean ====
/-
  The dense normalised adjacency matrix the kernel's host code builds, read at one entry.

  The host code adds the value of every edge into a zero [10240, 10240] matrix at (destination word, source word)
  and keeps the result in a narrower float format, which over the extended reals is the same matrix. Read at (p, q)
  this is the sum of the edge values over the edges whose destination is p and whose source is q: entry (p, q) of
  the normalised adjacency matrix over the padded node range.
-/
import proofs.«430124_j2216203125270_2_alg».proof.Proof.Gen.KernelIdeal.Frame
import proofs.«430124_j2216203125270_2_alg».proof.Proof.KerEdgeVal
import Idealize.ShloMosaic.Lib.StableHlo.Run

noncomputable section

namespace Cert.KernelIdeal.HostValue

open Idealize.ShloMosaic Idealize.ShloMosaic.ValueIdx Idealize.ShloMosaic.TcCoe
open Cert.KernelIdeal Cert.KernelIdeal.Gen Cert.GC

/-- The host operations up to the table of positions, then the last four (the table, the scatter, the format change
    and a constant the next stretch uses). -/
theorem hostOps0_split (V : Valuation τ sig (Elt Ideal)) :
    StableHlo.after hostOps0 V = StableHlo.after (List.drop 56 hostOps0) (StableHlo.after (List.take 56 hostOps0) V) := by
  rw [← StableHlo.after_append, List.take_append_drop]

section First
variable (m : (ℓ : Loc nD τ sig) → Buf (Elt Ideal) ℓ) (ρ : Dev nD → PrngReg) (c : Dev nD)

/-- The buffers the last four operations read, after the first 56. -/
theorem first_v29 :
    (StableHlo.after (List.take 56 hostOps0) (Gen.W0 m ρ c) (Proc.devRef .tc main_v29) : FVec Ideal S10240x10240 .f32) = zeroMat := by
  simp only [hostOps0, List.take_succ_cons, List.take_zero]
  after_results_simp
  rfl

theorem first_v40 :
    (StableHlo.after (List.take 56 hostOps0) (Gen.W0 m ρ c) (Proc.devRef .tc main_v40) : IVec S640000x1 32)
      = col (wrapIdx 10240#32 (m ((c.tc : Thread nD τ).loc main_arg7))) := by
  simp only [hostOps0, List.take_succ_cons, List.take_zero]
  after_results_simp
  rfl

theorem first_v41 :
    (StableHlo.after (List.take 56 hostOps0) (Gen.W0 m ρ c) (Proc.devRef .tc main_v41) : IVec S640000x1 32)
      = col (wrapIdx 10240#32 (m ((c.tc : Thread nD τ).loc main_arg6))) := by
  simp only [hostOps0, List.take_succ_cons, List.take_zero]
  after_results_simp
  rfl

theorem first_v28 :
    (StableHlo.after (List.take 56 hostOps0) (Gen.W0 m ρ c) (Proc.devRef .tc main_v28) : FVec Ideal S640000 .f32)
      = edgeVal (m ((c.tc : Thread nD τ).loc main_arg6)) (m ((c.tc : Thread nD τ).loc main_arg7))
          (m ((c.tc : Thread nD τ).loc main_arg1)) := by
  simp only [hostOps0, List.take_succ_cons, List.take_zero]
  after_results_simp
  rfl

end First

/-- The matrix buffer after the host operations, as the scatter of the edge values through the table of positions,
    over the three edge arrays at launch. -/
theorem W1_main_v44 (m : (ℓ : Loc nD τ sig) → Buf (Elt Ideal) ℓ) (ρ : Dev nD → PrngReg) (c : Dev nD) :
    (Gen.W1 (F := Ideal) m ρ c (Proc.devRef .tc main_v44) : FVec Ideal S10240x10240 .bf16)
      = truncf .bf16
          (Host.scatterAdd scatter_S10240x10240_S640000x2_S640000_n_01_01_1 zeroMat
            (pairTable (m ((c.tc : Thread nD τ).loc main_arg6)) (m ((c.tc : Thread nD τ).loc main_arg7)))
            (edgeVal (m ((c.tc : Thread nD τ).loc main_arg6)) (m ((c.tc : Thread nD τ).loc main_arg7))
              (m ((c.tc : Thread nD τ).loc main_arg1))))
          bitsLt_bf16_f32 := by
  show StableHlo.after hostOps0 (Gen.W0 m ρ c) (Proc.devRef .tc main_v44) = _
  rw [hostOps0_split]
  have h29 := first_v29 m ρ c
  have h40 := first_v40 m ρ c
  have h41 := first_v41 m ρ c
  have h28 := first_v28 m ρ c
  generalize StableHlo.after (List.take 56 hostOps0) (Gen.W0 m ρ c) = V at h29 h40 h41 h28 ⊢
  simp only [hostOps0, List.drop_succ_cons, List.drop_zero]
  after_results
  rw [h29, h40, h41, h28]
  rfl

/-- THE MATRIX AT (p, q): the normalised adjacency matrix over the padded node range. -/
theorem A_value (m : (ℓ : Loc nD τ sig) → Buf (Elt Ideal) ℓ) (ρ : Dev nD → PrngReg) (c : Dev nD)
    (hs : InRange (m ((c.tc : Thread nD τ).loc main_arg6))) (hd : InRange (m ((c.tc : Thread nD τ).loc main_arg7))) (p q : Fin 10240) :
    (Gen.W1 (F := Ideal) m ρ c (Proc.devRef .tc main_v44) : FVec Ideal S10240x10240 .bf16) (ix2 p q)
      = adjMat (nodeOf (m ((c.tc : Thread nD τ).loc main_arg6)) hs) (nodeOf (m ((c.tc : Thread nD τ).loc main_arg7)) hd) emb
          (vec (m ((c.tc : Thread nD τ).loc main_arg1))) (nrm (m ((c.tc : Thread nD τ).loc main_arg6))) (nrm (m ((c.tc : Thread nD τ).loc main_arg7))) p q := by
  rw [W1_main_v44, truncf_apply]
  generalize m ((c.tc : Thread nD τ).loc main_arg6) = src at hs ⊢
  generalize m ((c.tc : Thread nD τ).loc main_arg7) = dst at hd ⊢
  generalize m ((c.tc : Thread nD τ).loc main_arg1) = ew
  show (_ : EReal) = _
  have hp := ScatterRead.pairScat_apply (R := 10240) (C := 10240) (M := 640000)
    scatter_S10240x10240_S640000x2_S640000_n_01_01_1_wf zeroMat (pairTable src dst) (edgeVal src dst ew) p q
  refine Eq.trans hp ?_
  rw [zeroMat_apply, zero_add]
  unfold adjMat
  refine Finset.sum_congr (Finset.filter_congr fun e _ => ?_) fun e _ => edgeVal_apply src dst ew hs hd e
  rw [pairTable_dst src dst hd e, pairTable_src src dst hs e, Fin.ext_iff, Fin.ext_iff, emb_val, emb_val, Nat.cast_inj, Nat.cast_inj]
  rfl

end Cert.KernelIdeal.HostValue

end
-- ==== Proof.KerRead.lean ====
/-
  The result of the kernel program read at a node's row.

  The last stretch of host operations slices the first 10000 rows off the second kernel call's output. That output is,
  entry by entry, the dense layer  max (A · (h · W1) + b1, 0)  of the first call's output h, and the first call's output
  is the same layer  max (A · (x · W0) + b0, 0)  of the feature matrix x padded with zero rows: the host operations
  before each call compute the inner product h · W, the calls compute the outer one, add the bias and clip. A is the
  normalised adjacency matrix the first stretch builds, the same at both calls. At ideal values the format changes
  between the calls are the identity. So the result at (i, k) is the two-layer dense form at the padded row of node i.
-/
import proofs.«430124_j2216203125270_2_alg».proof.Proof.KerFold
import proofs.«430124_j2216203125270_2_alg».proof.Proof.Region0
import proofs.«430124_j2216203125270_2_alg».proof.Proof.Region1
import proofs.«430124_j2216203125270_2_alg».proof.Proof.KerOps
import proofs.«430124_j2216203125270_2_alg».proof.Proof.KerA
import proofs.«430124_j2216203125270_2_alg».proof.Proof.Common
import Idealize.ShloMosaic.Lib.ValueIdx

noncomputable section

namespace Cert.KernelIdeal.HostValue

open Cert.KernelIdeal Cert.KernelIdeal.Gen Cert.GC Cert.KernelIdeal.RegionValue
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-! ## The products the host operations compute before each call -/

/-- The first call's second operand: the padded feature matrix times the first weight matrix. -/
theorem in0W_apply (q : Fin 10240) (k : Fin 128) :
    in0W m ρ c (ix2 q k) = ∑ c' : Fin 128, padRows (mat (argX m c)) q c' * mat (argW0 m c) c' k := by
  refine (congrFun (in0W_eq m ρ c) (ix2 q k)).trans ?_
  rw [truncf_apply, dot_apply]
  refine Finset.sum_congr rfl fun c' _ => ?_
  rw [pad_eq_padRows _ _ sitofp_zero]
  rfl

/-- The second call's second operand: the first call's output times the second weight matrix. -/
theorem in1W_apply (q : Fin 10240) (k : Fin 128) :
    in1W m ρ c (ix2 q k) = ∑ c' : Fin 128, mat (out0Arr m ρ c) q c' * mat (argW1 m c) c' k := by
  refine (congrFun (in1W_eq m ρ c) (ix2 q k)).trans ?_
  rw [truncf_apply, dot_apply]
  rfl

/-- The bias rows. -/
theorem in0B_apply (k : Fin 128) : in0B m ρ c (ix2 (0 : Fin 1) k) = vec (argB0 m c) k :=
  (congrFun (in0B_eq m ρ c) (ix2 (0 : Fin 1) k)).trans (reshape_row _ k)

theorem in1B_apply (k : Fin 128) : in1B m ρ c (ix2 (0 : Fin 1) k) = vec (argB1 m c) k :=
  (congrFun (in1B_eq m ρ c) (ix2 (0 : Fin 1) k)).trans (reshape_row _ k)

/-! ## The two calls as dense layers -/

/-- The first call's output is the dense layer of the padded feature matrix. -/
theorem out0_apply (p : Fin 10240) (k : Fin 128) :
    mat (out0Arr m ρ c) p k
      = kerLayer (mat (adjArr m ρ c)) (padRows (mat (argX m c))) (mat (argW0 m c)) (vec (argB0 m c)) p k := by
  refine (region0_value (V3 m ρ) c p k).trans ?_
  have hA : Aarr_R0 (V3 m ρ) c = adjArr m ρ c := in0A_eq m ρ c
  have hW : ∀ q, Warr_R0 (V3 m ρ) c (ix2 q k) = ∑ c' : Fin 128, padRows (mat (argX m c)) q c' * mat (argW0 m c) c' k :=
    fun q => in0W_apply m ρ c q k
  have hB : Barr_R0 (V3 m ρ) c (ix2 (0 : Fin 1) k) = vec (argB0 m c) k := in0B_apply m ρ c k
  rw [hA, hB]
  unfold kerLayer
  refine congrArg (fun s => max (s + vec (argB0 m c) k) 0) (Finset.sum_congr rfl fun q _ => ?_)
  rw [hW q]
  rfl

/-- The second call's output is the dense layer of the first call's output. -/
theorem out1_apply (p : Fin 10240) (k : Fin 128) :
    mat (out1Arr m ρ c) p k
      = kerLayer (mat (adjArr m ρ c)) (mat (out0Arr m ρ c)) (mat (argW1 m c)) (vec (argB1 m c)) p k := by
  refine (region1_value (V5 m ρ) c p k).trans ?_
  have hA : Aarr_R1 (V5 m ρ) c = adjArr m ρ c := in1A_eq m ρ c
  have hW : ∀ q, Warr_R1 (V5 m ρ) c (ix2 q k) = ∑ c' : Fin 128, mat (out0Arr m ρ c) q c' * mat (argW1 m c) c' k :=
    fun q => in1W_apply m ρ c q k
  have hB : Barr_R1 (V5 m ρ) c (ix2 (0 : Fin 1) k) = vec (argB1 m c) k := in1B_apply m ρ c k
  rw [hA, hB]
  unfold kerLayer
  refine congrArg (fun s => max (s + vec (argB1 m c) k) 0) (Finset.sum_congr rfl fun q _ => ?_)
  rw [hW q]
  rfl

/-- The result is the second call's output at the node's padded row. -/
theorem res_apply (i : Fin 10000) (k : Fin 128) : resArr m ρ c (ix2 i k) = mat (out1Arr m ρ c) (emb i) k := by
  refine (congrFun (res_eq m ρ c) (ix2 i k)).trans ?_
  rw [extf_apply, slice_apply]
  rfl

/-! ## The result -/

/-- THE KERNEL PROGRAM'S RESULT AT A NODE: two dense layers over the normalised adjacency matrix, read at the node's
    padded row. -/
theorem ker_read (m : (ℓ : Loc nD τ sig) → Buf (Elt Ideal) ℓ) (ρ : Dev nD → PrngReg) (c : Dev nD)
    (hs : InRange (m ((c.tc : Thread nD τ).loc main_arg6))) (hd : InRange (m ((c.tc : Thread nD τ).loc main_arg7)))
    (i : Fin 10000) (k : Fin 128) :
    (Gen.W7 (F := Ideal) m ρ c (Proc.devRef .tc main_v56) : FVec Ideal S10000x128 .f32) (ix2 i k)
      = kerLayer
          (adjMat (nodeOf (m ((c.tc : Thread nD τ).loc main_arg6)) hs) (nodeOf (m ((c.tc : Thread nD τ).loc main_arg7)) hd) emb
            (vec (m ((c.tc : Thread nD τ).loc main_arg1))) (nrm (m ((c.tc : Thread nD τ).loc main_arg6))) (nrm (m ((c.tc : Thread nD τ).loc main_arg7))))
          (kerLayer
            (adjMat (nodeOf (m ((c.tc : Thread nD τ).loc main_arg6)) hs) (nodeOf (m ((c.tc : Thread nD τ).loc main_arg7)) hd) emb
              (vec (m ((c.tc : Thread nD τ).loc main_arg1))) (nrm (m ((c.tc : Thread nD τ).loc main_arg6))) (nrm (m ((c.tc : Thread nD τ).loc main_arg7))))
            (padRows (mat (m ((c.tc : Thread nD τ).loc main_arg0)))) (mat (m ((c.tc : Thread nD τ).loc main_arg2)))
            (vec (m ((c.tc : Thread nD τ).loc main_arg3))))
          (mat (m ((c.tc : Thread nD τ).loc main_arg4))) (vec (m ((c.tc : Thread nD τ).loc main_arg5))) (emb i) k := by
  have hadj : mat (adjArr m ρ c)
      = adjMat (nodeOf (m ((c.tc : Thread nD τ).loc main_arg6)) hs) (nodeOf (m ((c.tc : Thread nD τ).loc main_arg7)) hd) emb
          (vec (m ((c.tc : Thread nD τ).loc main_arg1))) (nrm (m ((c.tc : Thread nD τ).loc main_arg6))) (nrm (m ((c.tc : Thread nD τ).loc main_arg7))) :=
    funext fun p => funext fun q => A_value m ρ c hs hd p q
  have h0 : mat (out0Arr m ρ c)
      = kerLayer (mat (adjArr m ρ c)) (padRows (mat (argX m c))) (mat (argW0 m c)) (vec (argB0 m c)) :=
    funext fun p => funext fun k => out0_apply m ρ c p k
  refine (res_apply m ρ c i k).trans ?_
  rw [out1_apply, h0, hadj]

end Cert.KernelIdeal.HostValue

end
-- ==== Proof.lean ====
/-
  Two graph-convolution layers with the symmetric degree normalisation (relu(D_in^(-1/2) A D_out^(-1/2) h W + b),
  A the weighted adjacency of the edge list) computed two ways.

  The kernel's program first adds every edge's normalised weight  ew e * ns (src e) * nd (dst e)  into a dense
  [10240, 10240] matrix at (dst e, src e) — the 10000 nodes padded to 10240 rows and columns —, pads the features with
  240 zero rows, and then runs, per layer, one dense product  relu (A (h W) + b)  a block of 640 rows at a time.
  The reference scales the rows of h by ns, gathers them along the edges, weights them, adds them up at the
  destination node, multiplies by W, scales by nd, adds the bias and clips at zero.

  Under the precondition every float input is a real number and every edge endpoint is a node in [0, 10000). Then
  every normalisation factor is a real number too (the inverse square root of a count raised to at least one), both
  programs compute with real numbers only, and the two results agree entry by entry: matrix multiplication is
  associative, the factor nd of the destination comes out of the sum over the edges landing there, and the padded
  columns of the dense matrix are zero, so the padded rows of the intermediate features never reach a node's row.

  The frames of the two kernel programs are the generated ones; the reference's frame is its generated run with the
  result dropped; the idealized kernel is the kernel's own text read over the extended reals (no rewrite to
  preserve).
-/
import proofs.«430124_j2216203125270_2_alg».proof.Defs
import proofs.«430124_j2216203125270_2_alg».proof.Proof.Gen.Kernel
import proofs.«430124_j2216203125270_2_alg».proof.Proof.Gen.Kernel.Skeleton
import proofs.«430124_j2216203125270_2_alg».proof.Proof.Gen.Kernel.Launch
import proofs.«430124_j2216203125270_2_alg».proof.Proof.Gen.Kernel.Points
import proofs.«430124_j2216203125270_2_alg».proof.Proof.Gen.Kernel.Frame
import proofs.«430124_j2216203125270_2_alg».proof.Proof.Gen.KernelIdeal
import proofs.«430124_j2216203125270_2_alg».proof.Proof.Gen.KernelIdeal.Skeleton
import proofs.«430124_j2216203125270_2_alg».proof.Proof.Gen.KernelIdeal.Launch
import proofs.«430124_j2216203125270_2_alg».proof.Proof.Gen.KernelIdeal.Points
import proofs.«430124_j2216203125270_2_alg».proof.Proof.Gen.KernelIdeal.Frame
import proofs.«430124_j2216203125270_2_alg».proof.Proof.Gen.ReferenceIdeal
import proofs.«430124_j2216203125270_2_alg».proof.Proof.Gen.Pre_finite_inputs
import proofs.«430124_j2216203125270_2_alg».proof.Proof.Gen.ReferenceIdeal.Run
import proofs.«430124_j2216203125270_2_alg».proof.Proof.Gen.ReferenceIdeal.Read
import proofs.«430124_j2216203125270_2_alg».proof.Proof.Common
import proofs.«430124_j2216203125270_2_alg».proof.Proof.Spec
import proofs.«430124_j2216203125270_2_alg».proof.Proof.PreFacts
import proofs.«430124_j2216203125270_2_alg».proof.Proof.RefRead
import proofs.«430124_j2216203125270_2_alg».proof.Proof.KerRun
import proofs.«430124_j2216203125270_2_alg».proof.Proof.KerRead
import Idealize.ShloMosaic.Adequacy
import Idealize.ShloMosaic.Init

noncomputable section

namespace Cert.Proof

open Idealize.ShloMosaic Idealize.ShloMosaic.TcCoe Idealize.SL.Sem Idealize.ShloMosaic.ValueIdx Cert.GC

attribute [local instance] Cert.Pre_finite_inputs.Gen.facts Cert.Kernel.Gen.facts Cert.KernelIdeal.Gen.facts
  Cert.ReferenceIdeal.Gen.facts

/-- The word-level kernel terminates without a fault and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same [10000, 128] array: entry (i, k) of
    the kernel's is two dense layers over the padded index range read at node i, entry (i, k) of the reference's two
    aggregate-first layers, and on real data with in-range edges these are one number. -/
theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v56),
    Cert.KernelIdeal.HostValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  -- the precondition: six arrays of real numbers and two index vectors of nodes
  obtain ⟨r0, r1, r2, r3, r4, r5, hs, hd⟩ := Cert.GC.pre_facts _ _ _ _ _ _ _ _ (hpre c)
  rw [Cert.ReferenceIdeal.Read.val_main_v75_eq, h0, h1, h2, h3, h4, h5, h6, h7]
  funext j
  obtain ⟨i, k, rfl⟩ : ∃ (i : Fin 10000) (k : Fin 128), j = ix2 i k := ⟨j 0, j 1, eq_ix2 j⟩
  -- the reference's entry, the kernel's entry, and the identity between the two forms
  refine (Cert.GC.Ref.ref_read _ _ _ _ _ _ _ _ hs hd i k).trans ?_
  refine Eq.trans ?_ (Cert.KernelIdeal.HostValue.ker_read m ρ c hs hd i k).symm
  exact (ker_eq_ref _ _ emb emb_injective _ _ _ _ _ _ _ _ (fun e => r1 _) (nrm_isReal _) (nrm_isReal _)
    (fun v c' => r0 _) (fun c' k' => r2 _) (fun c' k' => r4 _) (fun k' => r3 _) (fun k' => r5 _) _ (padRows_emb _) i k).symm

theorem claim : Cert.Claim := ⟨Cert.Kernel.Gen.facts, Cert.KernelIdeal.Gen.facts, Cert.ReferenceIdeal.Gen.facts,
  Cert.Pre_finite_inputs.Gen.facts, frame_kernel, frame_kernel_ideal, frame_reference, trivial, algebraic⟩

end Cert.Proof

end
